-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S8x4096x2048 : Shape := ⟨3, ![8, 4096, 2048]⟩
abbrev S8x2048x4096 : Shape := ⟨3, ![8, 2048, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn_part1 {F : FTy → Type} [FloatOps F] (main_v13 : IVec S_ 1) (main_v16 : IVec S8x2048x4096 1) : IVec S_ 1 :=
  let main_c_5 : IVec S_ 1 := constantI S_ 1 1#1
  let main_v17 : IVec S_ 1 := (fun x v => Host.reduce IntOp.andi x v reducesTo_S8x2048x4096_S_d0_1_2 h_S_) main_v16 main_c_5
  let main_v18 : IVec S_ 1 := andi main_v13 main_v17
  main_v18

def fn {F : FTy → Type} [FloatOps F] (main_arg0 : FVec F S8192x2048 .f32) (main_arg1 : IVec S8192x2 32) (main_arg2 : FVec F S8192x2 .f32) (main_arg3 : FVec F S8x4096x2048 .f32) (main_arg4 : FVec F S8x2048x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x4096x2048 .f32 := Host.absf main_arg3
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  let main_v14 : FVec F S8x2048x4096 .f32 := Host.absf main_arg4
  let main_cst_4 : FVec F S_ .f32 := constant S_ .f32 0x7F800000#32
  let main_v15 : FVec F S8x2048x4096 .f32 := broadcastInDim S8x2048x4096 ![] bcast_S_S8x2048x4096 main_cst_4
  let main_v16 : IVec S8x2048x4096 1 := cmpf .olt main_v14 main_v15
  fn_part1 (F := F) main_v13 main_v16
-- ==== Kernel.lean ====
abbrev S8192x2048 : Shape := ⟨2, ![8192, 2048]⟩
abbrev S8192x2 : Shape := ⟨2, ![8192, 2]⟩
abbrev S8x4096x2048 : Shape := ⟨3, ![8, 4096, 2048]⟩
abbrev S8x2048x4096 : Shape := ⟨3, ![8, 2048, 4096]⟩
abbrev S8192x2x1 : Shape := ⟨3, ![8192, 2, 1]⟩
abbrev S8 : Shape := ⟨1, ![8]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S512x2048 : Shape := ⟨2, ![512, 2048]⟩
abbrev S1x512x2048 : Shape := ⟨3, ![1, 512, 2048]⟩
abbrev S1x2048x512 : Shape := ⟨3, ![1, 2048, 512]⟩
abbrev S512x8 : Shape := ⟨2, ![512, 8]⟩
abbrev S512x512 : Shape := ⟨2, ![512, 512]⟩
abbrev S2048x512 : Shape := ⟨2, ![2048, 512]⟩
abbrev S1x8 : Shape := ⟨2, ![1, 8]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2, .i32⟩
  | .hbm, ⟨2, _⟩ => ⟨S8192x2, .f32⟩
  | .hbm, ⟨3, _⟩ => ⟨S8x4096x2048, .f32⟩
  | .hbm, ⟨4, _⟩ => ⟨S8x2048x4096, .f32⟩
  | .hbm, ⟨5, _⟩ => ⟨S8192x2x1, .i32⟩
  | .hbm, ⟨6, _⟩ => ⟨S8, .i32⟩
  | .hbm, ⟨7, _⟩ => ⟨S1x1x8, .i32⟩
  | .hbm, ⟨8, _⟩ => ⟨S8192x2x8, .i32⟩
  | .hbm, ⟨9, _⟩ => ⟨S8192x2x8, .i32⟩
  | .hbm, ⟨10, _⟩ => ⟨S8192x2x8, .i1⟩
  | .hbm, ⟨11, _⟩ => ⟨S8192x2x8, .f32⟩
  | .hbm, ⟨12, _⟩ => ⟨S8192x2x1, .f32⟩
  | .hbm, ⟨13, _⟩ => ⟨S8192x2x8, .f32⟩
  | .hbm, ⟨14, _⟩ => ⟨S8192x2x8, .f32⟩
  | .hbm, ⟨15, _⟩ => ⟨S_, .f32⟩
  | .hbm, ⟨16, _⟩ => ⟨S8192x8, .f32⟩
  | .hbm, ⟨17, _⟩ => ⟨S8192x2048, .bf16⟩
  | .hbm, ⟨18, _⟩ => ⟨S8x4096x2048, .bf16⟩
  | .hbm, ⟨19, _⟩ => ⟨S8x2048x4096, .bf16⟩
  | .hbm, ⟨20, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S512x8, .f32⟩
  | .local _ .vmem, ⟨7, _⟩ => ⟨S512x8, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 8], ![false, false, false]⟩

def k0_cond4 (i : grid0.Coords) : BitVec 1 :=
  let arg1 : BitVec 32 := BitVec.ofNat 32 (i 1).val
  let c7_i32_18 : BitVec 32 := 7#32
  let v28 : BitVec 1 := Scalar.cmpi .eq arg1 c7_i32_18
  let arg2 : BitVec 32 := BitVec.ofNat 32 (i 2).val
  let c7_i32_19 : BitVec 32 := 7#32
  let v29 : BitVec 1 := Scalar.cmpi .eq arg2 c7_i32_19
  let v30 : BitVec 1 := Scalar.andi v28 v29
  let v31 : BitVec 32 := Scalar.extui v30
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  reducesTo_S8192x2x8_S8192x8_d1 : S8192x2x8.ReducesTo [1] S8192x8
  h_S_ : 0 < S_.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  iota_S1x8_d1_w32 : S1x8.Iotas .tc 32 [1]
  natLt_1_32 : 1 < 32
  inb_S512x8_S512x8_0_0 : ∀ a, (![0, 0] : Fin 2 → Nat) a + S512x8.size a ≤ S512x8.size a
  h_S512x8 : 0 < S512x8.numel
  shapeCasts_S512x8_S512x8 : S512x8.ShapeCasts S512x8
  broadcasts_S1x8_S512x8 : S1x8.Broadcasts S512x8
  reduces_S512x8_S512 : S512x8.Reduces [1] S512
  shapeCasts_S512_S512x1 : S512.ShapeCasts S512x1
  broadcasts_S512x1_S512x2048 : S512x1.Broadcasts S512x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x4096x2048.size a
  hwx0_1 : ∀ i : grid0.Coords, EltTy.bits .bf16 = 32 ∨ (Rect.block (s := S8x4096x2048) S1x512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S8192x8.size a
  hwx0_3 : ∀ i : grid0.Coords, EltTy.bits .f32 = 32 ∨ (Rect.block (s := S8192x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v11) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192x2 : Shape := ⟨2, ![8192, 2]⟩
abbrev S8x4096x2048 : Shape := ⟨3, ![8, 4096, 2048]⟩
abbrev S8x2048x4096 : Shape := ⟨3, ![8, 2048, 4096]⟩
abbrev S8192x2x1 : Shape := ⟨3, ![8192, 2, 1]⟩
abbrev S8 : Shape := ⟨1, ![8]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S1x4096x2048 : Shape := ⟨3, ![1, 4096, 2048]⟩
abbrev S4096x2048 : Shape := ⟨2, ![4096, 2048]⟩
abbrev S2048x4096 : Shape := ⟨2, ![2048, 4096]⟩
abbrev S8192x4096 : Shape := ⟨2, ![8192, 4096]⟩
abbrev S1x2048x4096 : Shape := ⟨3, ![1, 2048, 4096]⟩
abbrev S8192x1 : Shape := ⟨2, ![8192, 1]⟩

abbrev nBuf : Space → Nat
  | .hbm => 147
  | .vmem => 0
  | .smem => 0
  | _ => 0

abbrev hbmTy0_0 (i : Nat) : BufTy := match i % 128 with
  | 0 => ⟨S8192x2048, .f32⟩
  | 1 => ⟨S8192x2, .i32⟩
  | 2 => ⟨S8192x2, .f32⟩
  | 3 => ⟨S8x4096x2048, .f32⟩
  | 4 => ⟨S8x2048x4096, .f32⟩
  | 5 => ⟨S8192x2x1, .i32⟩
  | 6 => ⟨S8, .i32⟩
  | 7 => ⟨S1x1x8, .i32⟩
  | 8 => ⟨S8192x2x8, .i32⟩
  | 9 => ⟨S8192x2x8, .i32⟩
  | 10 => ⟨S8192x2x8, .i1⟩
  | 11 => ⟨S8192x2x1, .f32⟩
  | 12 => ⟨S8192x2x8, .f32⟩
  | 13 => ⟨S8192x2x8, .f32⟩
  | 14 => ⟨S8192x2x8, .f32⟩
  | 15 => ⟨S_, .f32⟩
  | 16 => ⟨S8192x8, .f32⟩
  | 17 => ⟨S_, .f32⟩
  | 18 => ⟨S8192x2048, .f32⟩
  | 19 => ⟨S1x4096x2048, .f32⟩
  | 20 => ⟨S4096x2048, .f32⟩
  | 21 => ⟨S2048x4096, .f32⟩
  | 22 => ⟨S8192x4096, .f32⟩
  | 23 => ⟨S_, .f32⟩
  | 24 => ⟨S8192x4096, .f32⟩
  | 25 => ⟨S8192x4096, .f32⟩
  | 26 => ⟨S8192x4096, .f32⟩
  | 27 => ⟨S1x2048x4096, .f32⟩
  | 28 => ⟨S2048x4096, .f32⟩
  | 29 => ⟨S4096x2048, .f32⟩
  | 30 => ⟨S8192x2048, .f32⟩
  | 31 => ⟨S8192x1, .f32⟩
  | 32 => ⟨S8192x2048, .f32⟩
  | 33 => ⟨S8192x2048, .f32⟩
  | 34 => ⟨S8192x2048, .f32⟩
  | 35 => ⟨S1x4096x2048, .f32⟩
  | 36 => ⟨S4096x2048, .f32⟩
  | 37 => ⟨S2048x4096, .f32⟩
  | 38 => ⟨S8192x4096, .f32⟩
  | 39 => ⟨S_, .f32⟩
  | 40 => ⟨S8192x4096, .f32⟩
  | 41 => ⟨S8192x4096, .f32⟩
  | 42 => ⟨S8192x4096, .f32⟩
  | 43 => ⟨S1x2048x4096, .f32⟩
  | 44 => ⟨S2048x4096, .f32⟩
  | 45 => ⟨S4096x2048, .f32⟩
  | 46 => ⟨S8192x2048, .f32⟩
  | 47 => ⟨S8192x1, .f32⟩
  | 48 => ⟨S8192x2048, .f32⟩
  | 49 => ⟨S8192x2048, .f32⟩
  | 50 => ⟨S8192x2048, .f32⟩
  | 51 => ⟨S1x4096x2048, .f32⟩
  | 52 => ⟨S4096x2048, .f32⟩
  | 53 => ⟨S2048x4096, .f32⟩
  | 54 => ⟨S8192x4096, .f32⟩
  | 55 => ⟨S_, .f32⟩
  | 56 => ⟨S8192x4096, .f32⟩
  | 57 => ⟨S8192x4096, .f32⟩
  | 58 => ⟨S8192x4096, .f32⟩
  | 59 => ⟨S1x2048x4096, .f32⟩
  | 60 => ⟨S2048x4096, .f32⟩
  | 61 => ⟨S4096x2048, .f32⟩
  | 62 => ⟨S8192x2048, .f32⟩
  | 63 => ⟨S8192x1, .f32⟩
  | 64 => ⟨S8192x2048, .f32⟩
  | 65 => ⟨S8192x2048, .f32⟩
  | 66 => ⟨S8192x2048, .f32⟩
  | 67 => ⟨S1x4096x2048, .f32⟩
  | 68 => ⟨S4096x2048, .f32⟩
  | 69 => ⟨S2048x4096, .f32⟩
  | 70 => ⟨S8192x4096, .f32⟩
  | 71 => ⟨S_, .f32⟩
  | 72 => ⟨S8192x4096, .f32⟩
  | 73 => ⟨S8192x4096, .f32⟩
  | 74 => ⟨S8192x4096, .f32⟩
  | 75 => ⟨S1x2048x4096, .f32⟩
  | 76 => ⟨S2048x4096, .f32⟩
  | 77 => ⟨S4096x2048, .f32⟩
  | 78 => ⟨S8192x2048, .f32⟩
  | 79 => ⟨S8192x1, .f32⟩
  | 80 => ⟨S8192x2048, .f32⟩
  | 81 => ⟨S8192x2048, .f32⟩
  | 82 => ⟨S8192x2048, .f32⟩
  | 83 => ⟨S1x4096x2048, .f32⟩
  | 84 => ⟨S4096x2048, .f32⟩
  | 85 => ⟨S2048x4096, .f32⟩
  | 86 => ⟨S8192x4096, .f32⟩
  | 87 => ⟨S_, .f32⟩
  | 88 => ⟨S8192x4096, .f32⟩
  | 89 => ⟨S8192x4096, .f32⟩
  | 90 => ⟨S8192x4096, .f32⟩
  | 91 => ⟨S1x2048x4096, .f32⟩
  | 92 => ⟨S2048x4096, .f32⟩
  | 93 => ⟨S4096x2048, .f32⟩
  | 94 => ⟨S8192x2048, .f32⟩
  | 95 => ⟨S8192x1, .f32⟩
  | 96 => ⟨S8192x2048, .f32⟩
  | 97 => ⟨S8192x2048, .f32⟩
  | 98 => ⟨S8192x2048, .f32⟩
  | 99 => ⟨S1x4096x2048, .f32⟩
  | 100 => ⟨S4096x2048, .f32⟩
  | 101 => ⟨S2048x4096, .f32⟩
  | 102 => ⟨S8192x4096, .f32⟩
  | 103 => ⟨S_, .f32⟩
  | 104 => ⟨S8192x4096, .f32⟩
  | 105 => ⟨S8192x4096, .f32⟩
  | 106 => ⟨S8192x4096, .f32⟩
  | 107 => ⟨S1x2048x4096, .f32⟩
  | 108 => ⟨S2048x4096, .f32⟩
  | 109 => ⟨S4096x2048, .f32⟩
  | 110 => ⟨S8192x2048, .f32⟩
  | 111 => ⟨S8192x1, .f32⟩
  | 112 => ⟨S8192x2048, .f32⟩
  | 113 => ⟨S8192x2048, .f32⟩
  | 114 => ⟨S8192x2048, .f32⟩
  | 115 => ⟨S1x4096x2048, .f32⟩
  | 116 => ⟨S4096x2048, .f32⟩
  | 117 => ⟨S2048x4096, .f32⟩
  | 118 => ⟨S8192x4096, .f32⟩
  | 119 => ⟨S_, .f32⟩
  | 120 => ⟨S8192x4096, .f32⟩
  | 121 => ⟨S8192x4096, .f32⟩
  | 122 => ⟨S8192x4096, .f32⟩
  | 123 => ⟨S1x2048x4096, .f32⟩
  | 124 => ⟨S2048x4096, .f32⟩
  | 125 => ⟨S4096x2048, .f32⟩
  | 126 => ⟨S8192x2048, .f32⟩
  | 127 => ⟨S8192x1, .f32⟩
  | _ => ⟨S8192x2048, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S1x4096x2048, .f32⟩
  | 4 => ⟨S4096x2048, .f32⟩
  | 5 => ⟨S2048x4096, .f32⟩
  | 6 => ⟨S8192x4096, .f32⟩
  | 7 => ⟨S_, .f32⟩
  | 8 => ⟨S8192x4096, .f32⟩
  | 9 => ⟨S8192x4096, .f32⟩
  | 10 => ⟨S8192x4096, .f32⟩
  | 11 => ⟨S1x2048x4096, .f32⟩
  | 12 => ⟨S2048x4096, .f32⟩
  | 13 => ⟨S4096x2048, .f32⟩
  | 14 => ⟨S8192x2048, .f32⟩
  | 15 => ⟨S8192x1, .f32⟩
  | 16 => ⟨S8192x2048, .f32⟩
  | 17 => ⟨S8192x2048, .f32⟩
  | 18 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_cst : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call2_cst : Ref sig .tc := ⟨.hbm, 55, rfl⟩
abbrev main_call2_v0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call3_cst : Ref sig .tc := ⟨.hbm, 71, rfl⟩
abbrev main_call3_v0 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call4_cst : Ref sig .tc := ⟨.hbm, 87, rfl⟩
abbrev main_call4_v0 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_call5_cst : Ref sig .tc := ⟨.hbm, 103, rfl⟩
abbrev main_call5_v0 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_call6_cst : Ref sig .tc := ⟨.hbm, 119, rfl⟩
abbrev main_call6_v0 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_call7_cst : Ref sig .tc := ⟨.hbm, 135, rfl⟩
abbrev main_call7_v0 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩

abbrev nD : Nat := 1
abbrev τ : Topo := Topo.v7x

variable {F : FTy → Type} [FloatOps F]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  reducesTo_S8192x2x8_S8192x8_d1 : S8192x2x8.ReducesTo [1] S8192x8
  h_S_ : 0 < S_.numel
  bcast_S_S8192x2048 : S_.BroadcastsInDim S8192x2048 (![] : Fin 0 → Fin S8192x2048.rank)
  slices_S8x4096x2048_S1x4096x2048_0_0_0 : S8x4096x2048.Slices ![0, 0, 0] S1x4096x2048
  shapeCasts_S1x4096x2048_S4096x2048 : S1x4096x2048.ShapeCasts S4096x2048
  transposes_S4096x2048_S2048x4096_1_0 : S4096x2048.Transposes [1, 0] S2048x4096
  bcast_S_S8192x4096 : S_.BroadcastsInDim S8192x4096 (![] : Fin 0 → Fin S8192x4096.rank)
  slices_S8x2048x4096_S1x2048x4096_0_0_0 : S8x2048x4096.Slices ![0, 0, 0] S1x2048x4096
  shapeCasts_S1x2048x4096_S2048x4096 : S1x2048x4096.ShapeCasts S2048x4096
  transposes_S2048x4096_S4096x2048_1_0 : S2048x4096.Transposes [1, 0] S4096x2048
  slices_S8192x8_S8192x1_0_0 : S8192x8.Slices ![0, 0] S8192x1
  bcast_S8192x1_S8192x2048_0_1 : S8192x1.BroadcastsInDim S8192x2048 (![0, 1] : Fin 2 → Fin S8192x2048.rank)
  slices_S8x4096x2048_S1x4096x2048_1_0_0 : S8x4096x2048.Slices ![1, 0, 0] S1x4096x2048
  slices_S8x2048x4096_S1x2048x4096_1_0_0 : S8x2048x4096.Slices ![1, 0, 0] S1x2048x4096
  slices_S8192x8_S8192x1_0_1 : S8192x8.Slices ![0, 1] S8192x1
  slices_S8x4096x2048_S1x4096x2048_2_0_0 : S8x4096x2048.Slices ![2, 0, 0] S1x4096x2048
  slices_S8x2048x4096_S1x2048x4096_2_0_0 : S8x2048x4096.Slices ![2, 0, 0] S1x2048x4096
  slices_S8192x8_S8192x1_0_2 : S8192x8.Slices ![0, 2] S8192x1
  slices_S8x4096x2048_S1x4096x2048_3_0_0 : S8x4096x2048.Slices ![3, 0, 0] S1x4096x2048
  slices_S8x2048x4096_S1x2048x4096_3_0_0 : S8x2048x4096.Slices ![3, 0, 0] S1x2048x4096
  slices_S8192x8_S8192x1_0_3 : S8192x8.Slices ![0, 3] S8192x1
  slices_S8x4096x2048_S1x4096x2048_4_0_0 : S8x4096x2048.Slices ![4, 0, 0] S1x4096x2048
  slices_S8x2048x4096_S1x2048x4096_4_0_0 : S8x2048x4096.Slices ![4, 0, 0] S1x2048x4096
  slices_S8192x8_S8192x1_0_4 : S8192x8.Slices ![0, 4] S8192x1
  slices_S8x4096x2048_S1x4096x2048_5_0_0 : S8x4096x2048.Slices ![5, 0, 0] S1x4096x2048
  slices_S8x2048x4096_S1x2048x4096_5_0_0 : S8x2048x4096.Slices ![5, 0, 0] S1x2048x4096
  slices_S8192x8_S8192x1_0_5 : S8192x8.Slices ![0, 5] S8192x1
  slices_S8x4096x2048_S1x4096x2048_6_0_0 : S8x4096x2048.Slices ![6, 0, 0] S1x4096x2048
  slices_S8x2048x4096_S1x2048x4096_6_0_0 : S8x2048x4096.Slices ![6, 0, 0] S1x2048x4096
  slices_S8192x8_S8192x1_0_6 : S8192x8.Slices ![0, 6] S8192x1
  slices_S8x4096x2048_S1x4096x2048_7_0_0 : S8x4096x2048.Slices ![7, 0, 0] S1x4096x2048
  slices_S8x2048x4096_S1x2048x4096_7_0_0 : S8x2048x4096.Slices ![7, 0, 0] S1x2048x4096
  slices_S8192x8_S8192x1_0_7 : S8192x8.Slices ![0, 7] S8192x1
  dot_S8192x2048_S2048x4096_S8192x4096_1_0_0_1_n_n_wf : DotDims.WF S8192x2048 S2048x4096 S8192x4096 [1] [0] [0] [1] [] []
  dot_S8192x4096_S4096x2048_S8192x2048_1_0_0_1_n_n_wf : DotDims.WF S8192x4096 S4096x2048 S8192x2048 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.MoeSpec.lean ====
/-
  The mathematics both programs compute, stated once over the extended reals.

  A token row t of X [8192, 2048] is projected on every row i of expert e's up matrix U[e] [4096, 2048], rectified and
  squared (act); the squared activations are projected on row j of the expert's down matrix D[e] [2048, 4096] (yfull);
  and the eight experts' results are added in order, each scaled by the token's combine weight C(t, e) (outAcc, moe).

  The kernel walks the 4096 inner indices in eight blocks of 512, adding one block's partial projection at a time to a
  running sum that starts from zero (ysum); the eight blocks' sums are the whole sum (ysum_eight), because addition on
  the extended reals is commutative and associative: nothing is distributed and nothing is cancelled, so no
  finiteness is needed anywhere.
-/
import Idealize.ShloMosaic.PureOps.Ideal
import Idealize.ShloMosaic.Lib.ValueIdx
import Mathlib.Algebra.BigOperators.Fin
import Mathlib.Logic.Equiv.Fin.Basic

noncomputable section

namespace Moe

open Idealize.ShloMosaic Idealize.ShloMosaic.ValueIdx

abbrev SX : Shape := ⟨2, ![8192, 2048]⟩
abbrev SC : Shape := ⟨2, ![8192, 8]⟩
abbrev SU : Shape := ⟨3, ![8, 4096, 2048]⟩
abbrev SD : Shape := ⟨3, ![8, 2048, 4096]⟩

/-- A natural number as an expert (or inner-block) number: its residue mod 8. Below 8 it is the number itself. -/
def f8 (n : ℕ) : Fin 8 := ⟨n % 8, Nat.mod_lt n (by decide)⟩

theorem f8_val_of_lt {n : ℕ} (h : n < 8) : (f8 n).val = n := Nat.mod_eq_of_lt h

/-- Inner index 512·k + i of block k. -/
def inner (k : Fin 8) (i : Fin 512) : Fin 4096 := ⟨512 * k.val + i.val, by have := k.isLt; have := i.isLt; omega⟩

/-- Token 512·b + p of token tile b. -/
def tok (b : Fin 16) (p : Fin 512) : Fin 8192 := ⟨512 * b.val + p.val, by have := b.isLt; have := p.isLt; omega⟩

section
variable (X : SX.Idx → EReal) (C : SC.Idx → EReal) (U : SU.Idx → EReal) (D : SD.Idx → EReal)

/-- The pre-activation: token t against row i of expert e's up matrix. -/
def pre (e : Fin 8) (t : Fin 8192) (i : Fin 4096) : EReal := ∑ h : Fin 2048, X (ix2 t h) * U (ix3 e i h)

/-- The activation: the rectified pre-activation, squared. -/
def act (e : Fin 8) (t : Fin 8192) (i : Fin 4096) : EReal := max (pre X U e t i) 0 * max (pre X U e t i) 0

/-- One term of the down projection. -/
def dterm (e : Fin 8) (t : Fin 8192) (j : Fin 2048) (i : Fin 4096) : EReal := act X U e t i * D (ix3 e j i)

/-- The down projection: expert e's result for token t at hidden column j. -/
def yfull (e : Fin 8) (t : Fin 8192) (j : Fin 2048) : EReal := ∑ i : Fin 4096, dterm X U D e t j i

/-- Block k's share of the down projection: inner indices 512k … 512k + 511. -/
def yblock (e : Fin 8) (t : Fin 8192) (j : Fin 2048) (k : Fin 8) : EReal := ∑ i : Fin 512, dterm X U D e t j (inner k i)

/-- The running sum after the first n blocks, from zero, one block added at a time. -/
def ysum (e : Fin 8) (t : Fin 8192) (j : Fin 2048) : ℕ → EReal
  | 0 => 0
  | n + 1 => ysum e t j n + yblock X U D e t j (f8 n)

theorem ysum_zero (e : Fin 8) (t : Fin 8192) (j : Fin 2048) : ysum X U D e t j 0 = 0 := rfl

theorem ysum_succ (e : Fin 8) (t : Fin 8192) (j : Fin 2048) (n : ℕ) :
    ysum X U D e t j (n + 1) = ysum X U D e t j n + yblock X U D e t j (f8 n) := rfl

/-- A sum over 4096 indices is the sum over its eight blocks of 512. -/
theorem sum_blocks (f : Fin 4096 → EReal) : ∑ i : Fin 4096, f i = ∑ k : Fin 8, ∑ i : Fin 512, f (inner k i) := by
  rw [← Equiv.sum_comp (finProdFinEquiv : Fin 8 × Fin 512 ≃ Fin 4096) f, Fintype.sum_prod_type]
  refine Finset.sum_congr rfl fun k _ => Finset.sum_congr rfl fun i _ => congrArg f (Fin.ext ?_)
  show i.val + 512 * k.val = 512 * k.val + i.val
  omega

/-- The eight blocks added one at a time from zero are the whole down projection. -/
theorem ysum_eight (e : Fin 8) (t : Fin 8192) (j : Fin 2048) : ysum X U D e t j 8 = yfull X U D e t j := by
  unfold yfull
  rw [sum_blocks, Fin.sum_univ_eight]
  simp only [ysum, zero_add]
  rfl

/-- The output after the first n experts, from zero: each expert's down projection scaled by the token's combine weight. -/
def outAcc (t : Fin 8192) (j : Fin 2048) : ℕ → EReal
  | 0 => 0
  | n + 1 => outAcc t j n + C (ix2 t (f8 n)) * yfull X U D (f8 n) t j

theorem outAcc_zero (t : Fin 8192) (j : Fin 2048) : outAcc X C U D t j 0 = 0 := rfl

theorem outAcc_succ (t : Fin 8192) (j : Fin 2048) (n : ℕ) :
    outAcc X C U D t j (n + 1) = outAcc X C U D t j n + C (ix2 t (f8 n)) * yfull X U D (f8 n) t j := rfl

/-- The whole result: all eight experts. -/
def moe : SX.Idx → EReal := fun idx => outAcc X C U D (idx 0) (idx 1) 8

theorem moe_apply (t : Fin 8192) (j : Fin 2048) : moe X C U D (ix2 t j) = outAcc X C U D t j 8 := rfl

end

end Moe

end
-- ==== Proof.Pieces.lean ====
/-
  What each of the body's five control cases leaves in the two accumulators it carries from one grid point to the
  next, and in the output block, as the body's own arithmetic applied to what the case loads.

  The body keeps two [512, 2048] accumulators: the first (the "inner" one) sums the down projection's blocks over the
  inner axis, the second (the "outer" one) sums the experts' scaled results. A case that resets an accumulator stores
  zeros into it and reads them back before it adds; a case that does not touch the outer accumulator leaves in it what
  the point before left. The cases:
    A  first expert, first inner block : both reset; the inner one then takes its first block.
    B  a middle inner block            : the inner one takes one more block.
    C  last inner block, not last expert : the inner one takes its last block, the outer one takes the expert.
    D  first inner block, later expert : the inner one is reset and takes its first block.
    E  last inner block, last expert   : as C, and the outer accumulator is copied to the output block.
-/
import proofs.«168739_j6605659701708_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The three-axis offset of a whole block is the zero offset. -/
private theorem hz3 : (![0, 0, 0] : Fin 3 → Nat) = fun _ => 0 := funext fun a => by fin_cases a <;> rfl

/-- Case A, inner accumulator: zeros stored, read back, and the first block added. -/
theorem sA0 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) :
    sout0_A_0 c i arg3 harg3 arg4 harg4 arg5 harg5 arg6 harg6 arg7 harg7 arg8 harg8 arg9 harg9 hc0 hc1 hc2 hc3 x0 x1 x2 x3 = k0_pay3 x0 x1 x2 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1 x2 x3)]
  unfold kernelRun0_A
  dsimp only
  sl_unfold_words
  rw [View.canon_cons_unit_zero (S := S512x2048) hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, View.readCov_unit_zero (S := S512x2048) _ hz, shapeCast_self]

/-- Case A, outer accumulator: zeros. -/
theorem sA1 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) :
    sout0_A_1 c i arg3 harg3 arg4 harg4 arg5 harg5 arg6 harg6 arg7 harg7 arg8 harg8 arg9 harg9 hc0 hc1 hc2 hc3 x0 x1 x2 x3 = k0_pay1 (F := F) := by
  unfold sout0_A_1
  rw [View.read_writes_eq_canon _ _ _ (scover0_A_1 c i arg3 harg3 arg4 harg4 arg5 harg5 arg6 harg6 arg7 harg7 arg8 harg8 arg9 harg9 hc0 hc1 hc2 hc3 x0 x1 x2 x3)]
  unfold kernelRun0_A
  dsimp only
  sl_unfold_words
  rw [View.canon_unit_zero hz]

/-- Case B, inner accumulator: one more block added to what the point before left. -/
theorem sB0 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) (xs0 xs1 : Vec F S512x2048 .f32) :
    sout0_B_0 c i arg3 harg3 arg4 harg4 arg5 harg5 arg6 harg6 arg7 harg7 arg8 harg8 arg9 harg9 hc0 hc1 hc2 hc3 x0 x1 x2 x3 xs0 xs1 = k0_pay3 x0 x1 x2 xs0 := by
  unfold sout0_B_0
  rw [View.read_writes_eq_canon _ _ _ (scover0_B_0 c i arg3 harg3 arg4 harg4 arg5 harg5 arg6 harg6 arg7 harg7 arg8 harg8 arg9 harg9 hc0 hc1 hc2 hc3 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, shapeCast_self]

/-- Case B, outer accumulator: untouched. -/
theorem sB1 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) (xs0 xs1 : Vec F S512x2048 .f32) :
    sout0_B_1 c i arg3 harg3 arg4 harg4 arg5 harg5 arg6 harg6 arg7 harg7 arg8 harg8 arg9 harg9 hc0 hc1 hc2 hc3 x0 x1 x2 x3 xs0 xs1 = xs1 := rfl

/-- Case C, inner accumulator: the last block added. -/
theorem sC0 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : cond0_2 i) (hc3 : ¬cond0_3 i)
    (x0 : Vec F S512x2048 .bf16) (x1 : Vec F S1x512x2048 .bf16) (x2 : Vec F S1x2048x512 .bf16) (x3 : Vec F S512x8 .f32) (xs0 xs1 : Vec F S512x2048 .f32) :
    sout0_C_0 c i arg3 harg3 arg4 harg4 arg5 harg5 arg6 harg6 arg7 harg7 arg8 harg8 arg9 harg9 hc0 hc1 hc2 hc3 x0 x1 x2 x3 xs0 xs1 = k0_pay3 x0 x1 x2 xs0 := by
  unfold sout0_C_0
  rw [View.read_writes_eq_canon _ _ _ (scover0_C_0 c i arg3 harg3 arg4 harg4 arg5 harg5 arg6 harg6 arg7 harg7 arg8 harg8 arg9 harg9 hc0 hc1 hc2 hc3 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, shapeCast_self]

/-- Case C, outer accumulator: the expert's finished inner sum, scaled, added to what the point before left. -/
theorem sC1 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : cond0_2 i) (hc3 : ¬cond0_3 i)
    (x0 : Vec F S512x2048 .bf16) (x1 : Vec F S1x512x2048 .bf16) (x2 : Vec F S1x2048x512 .bf16) (x3 : Vec F S512x8 .f32) (xs0 xs1 : Vec F S512x2048 .f32) :
    sout0_C_1 c i arg3 harg3 arg4 harg4 arg5 harg5 arg6 harg6 arg7 harg7 arg8 harg8 arg9 harg9 hc0 hc1 hc2 hc3 x0 x1 x2 x3 xs0 xs1 = k0_pay4 i x3 xs1 (k0_pay3 x0 x1 x2 xs0) := by
  unfold sout0_C_1
  rw [View.read_writes_eq_canon _ _ _ (scover0_C_1 c i arg3 harg3 arg4 harg4 arg5 harg5 arg6 harg6 arg7 harg7 arg8 harg8 arg9 harg9 hc0 hc1 hc2 hc3 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, View.readCov_unit_zero (S := S512x2048) _ hz, shapeCast_self]

/-- Case D, inner accumulator: zeros stored, read back, and the first block added. -/
theorem sD0 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) (xs1 : Vec F S512x2048 .f32) :
    sout0_D_0 c i arg3 harg3 arg4 harg4 arg5 harg5 arg6 harg6 arg7 harg7 arg8 harg8 arg9 harg9 hc0 hc1 hc2 hc3 x0 x1 x2 x3 xs1 = k0_pay3 x0 x1 x2 (k0_pay2 (F := F)) := by
  unfold sout0_D_0
  rw [View.read_writes_eq_canon _ _ _ (scover0_D_0 c i arg3 harg3 arg4 harg4 arg5 harg5 arg6 harg6 arg7 harg7 arg8 harg8 arg9 harg9 hc0 hc1 hc2 hc3 x0 x1 x2 x3 xs1)]
  unfold kernelRun0_D
  dsimp only
  sl_unfold_words
  rw [View.canon_cons_unit_zero (S := S512x2048) hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, View.readCov_unit_zero (S := S512x2048) _ hz, shapeCast_self]

/-- Case D, outer accumulator: untouched. -/
theorem sD1 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i) (hc2 : ¬cond0_2 i) (hc3 : ¬cond0_3 i)
    (x0 : Vec F S512x2048 .bf16) (x1 : Vec F S1x512x2048 .bf16) (x2 : Vec F S1x2048x512 .bf16) (x3 : Vec F S512x8 .f32) (xs1 : Vec F S512x2048 .f32) :
    sout0_D_1 c i arg3 harg3 arg4 harg4 arg5 harg5 arg6 harg6 arg7 harg7 arg8 harg8 arg9 harg9 hc0 hc1 hc2 hc3 x0 x1 x2 x3 xs1 = xs1 := rfl

/-- Case E, inner accumulator: the last block added. -/
theorem sE0 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : cond0_2 i) (hc3 : cond0_3 i)
    (x0 : Vec F S512x2048 .bf16) (x1 : Vec F S1x512x2048 .bf16) (x2 : Vec F S1x2048x512 .bf16) (x3 : Vec F S512x8 .f32) (xs0 xs1 : Vec F S512x2048 .f32) :
    sout0_E_0 c i arg3 harg3 arg4 harg4 arg5 harg5 arg6 harg6 arg7 harg7 arg8 harg8 arg9 harg9 hc0 hc1 hc2 hc3 x0 x1 x2 x3 xs0 xs1 = k0_pay3 x0 x1 x2 xs0 := by
  unfold sout0_E_0
  rw [View.read_writes_eq_canon _ _ _ (scover0_E_0 c i arg3 harg3 arg4 harg4 arg5 harg5 arg6 harg6 arg7 harg7 arg8 harg8 arg9 harg9 hc0 hc1 hc2 hc3 x0 x1 x2 x3 xs0 xs1)]
  unfold kernelRun0_E
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, shapeCast_self]

/-- Case E, outer accumulator: the last expert's finished inner sum, scaled, added to what the point before left. -/
theorem sE1 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : cond0_2 i) (hc3 : cond0_3 i)
    (x0 : Vec F S512x2048 .bf16) (x1 : Vec F S1x512x2048 .bf16) (x2 : Vec F S1x2048x512 .bf16) (x3 : Vec F S512x8 .f32) (xs0 xs1 : Vec F S512x2048 .f32) :
    sout0_E_1 c i arg3 harg3 arg4 harg4 arg5 harg5 arg6 harg6 arg7 harg7 arg8 harg8 arg9 harg9 hc0 hc1 hc2 hc3 x0 x1 x2 x3 xs0 xs1 = k0_pay4 i x3 xs1 (k0_pay3 x0 x1 x2 xs0) := by
  unfold sout0_E_1
  rw [View.read_writes_eq_canon _ _ _ (scover0_E_1 c i arg3 harg3 arg4 harg4 arg5 harg5 arg6 harg6 arg7 harg7 arg8 harg8 arg9 harg9 hc0 hc1 hc2 hc3 x0 x1 x2 x3 xs0 xs1)]
  unfold kernelRun0_E
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, View.readCov_unit_zero (S := S512x2048) _ hz, shapeCast_self]

/-- Case E, output block: the finished outer accumulator. -/
theorem oE4 (c : Dev nD) (i : grid0.Coords) (arg3 : Memref sig .tc .vmem S512x2048 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (hc2 : cond0_2 i) (hc3 : cond0_3 i)
    (x0 : Vec F S512x2048 .bf16) (x1 : Vec F S1x512x2048 .bf16) (x2 : Vec F S1x2048x512 .bf16) (x3 : Vec F S512x8 .f32) (xs0 xs1 : Vec F S512x2048 .f32) :
    out0_E_4 c i arg3 harg3 arg4 harg4 arg5 harg5 arg6 harg6 arg7 harg7 arg8 harg8 arg9 harg9 hc0 hc1 hc2 hc3 x0 x1 x2 x3 xs0 xs1 = k0_pay4 i x3 xs1 (k0_pay3 x0 x1 x2 xs0) := by
  unfold out0_E_4
  rw [View.read_writes_eq_canon _ _ _ (cover0_E_4 c i arg3 harg3 arg4 harg4 arg5 harg5 arg6 harg6 arg7 harg7 arg8 harg8 arg9 harg9 hc0 hc1 hc2 hc3 x0 x1 x2 x3 xs0 xs1)]
  unfold kernelRun0_E
  dsimp only
  sl_unfold_words
  rw [View.canon_unit_zero hz]
  simp only [View.readAt_eq_ld, harg3.read_unread, harg4.read_unread, harg5.read_unread, harg6.read_unread, harg8.read_unread, harg9.read_unread,
    View.ld_unit_zero (S := S512x2048) hz, View.ld_unit_zero (S := S1x512x2048) hz3, View.ld_unit_zero (S := S1x2048x512) hz3,
    View.ld_unit_zero (S := S512x8) hz, View.readCov_unit_zero (S := S512x2048) _ hz, shapeCast_self]

end Cert.KernelIdeal.Pieces

end
-- ==== Proof.LibDotRowRow.lean ====
/-
  A contraction of two matrices along their second axes, re-indexed.

  For a contraction of an [R, K] array with a [C, K] array (no batch axis; both operands contract their axis 1, so
  the result at (p, q) pairs row p of the left operand with row q of the right one), the sum over the contraction's own
  index type of the operands' products at the result index (p, q) is the plain sum over k < K of l(p, k) * r(q, k).
  Stated at abstract extents and for any such dimension record, so that one lemma serves every such product of a
  program, whatever its sizes.

  The operand indices are read one axis at a time.  The left operand's axis 0 is its only non-contracting axis and
  there is no batch axis, so it reads the result index at position 0 + 0; its axis 1 is the only contracting axis and
  reads the contraction index's one coordinate.  The right operand's axis 0 is its only non-contracting axis and reads
  the result index at position 0 + 1 + 0, after the left operand's one non-contracting axis; its axis 1 is its only
  contracting axis and reads the contraction index's one coordinate.  The contraction index type has one axis of
  extent K, so it is in bijection with the numbers below K, and the sum is carried along that bijection.
-/
import Idealize.ShloMosaic.PureOps.Dims
import Idealize.ShloMosaic.Lib.ValueIdx

namespace DotRowRow

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![C, K]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![C, K]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, its only non-contracting axis, reads the result index's coordinate 1: the position
    after no batch axis and the left operand's one non-contracting axis. -/
theorem rhs_val_0 (d : DotDims ⟨2, ![R, K]⟩ ⟨2, ![C, K]⟩ ⟨2, ![R, C]⟩)
    (hrb : d.rhsBatch = []) (hrn : d.rhsNonContracting = [0])
    (hlb : d.lhsBatch = []) (hln : d.lhsNonContracting = [0])
    (j : (⟨2, ![R, C]⟩ : Shape).Idx) (k : d.contr.Idx) :
    (d.rhsIdx j k (0 : Fin 2)).val = (j (1 : Fin 2)).val := by
  have hb : ¬ (0 : Fin 2) ∈ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's axis 1, the only contracting axis, reads the contraction index's one coordinate. -/
theorem rhs_val_1 (d : DotDims ⟨2, ![R, K]⟩ ⟨2, ![C, K]⟩ ⟨2, ![R, C]⟩)
    (hrc : d.rhsContracting = [1]) (hr : d.contr.rank = 1)
    (j : (⟨2, ![R, C]⟩ : Shape).Idx) (k : d.contr.Idx) :
    (d.rhsIdx j k (1 : Fin 2)).val = (k ⟨0, by omega⟩).val :=
  d.rhsIdx_val_of_single hrc j k

/-- The left operand's index at result index `(p, q)` and contraction position `k` is `(p, k)`. -/
theorem lhsIdx_eq (d : DotDims ⟨2, ![R, K]⟩ ⟨2, ![C, K]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(q, k)`. -/
theorem rhsIdx_eq (d : DotDims ⟨2, ![R, K]⟩ ⟨2, ![C, K]⟩ ⟨2, ![R, C]⟩)
    (hrb : d.rhsBatch = []) (hrn : d.rhsNonContracting = [0]) (hrc : d.rhsContracting = [1])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 q k := by
  funext a
  apply Fin.ext
  match a with
  | ⟨0, _⟩ => exact rhs_val_0 d hrb hrn hlb hln (ix2 p q) _
  | ⟨1, _⟩ => exact (rhs_val_1 d hrc hr (ix2 p q) _).trans (contrEquiv1_symm_val d K hr hs k)

/-- The contraction sum at `(p, q)` is `∑ k < K, l (p, k) * r (q, k)`. -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (p : Fin R) (q : Fin C) :
    ∑ k : d.contr.Idx, l (d.lhsIdx (ix2 p q) k) * r (d.rhsIdx (ix2 p q) k) = ∑ k : Fin K, l (ix2 p k) * r (ix2 q k) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end DotRowRow
-- ==== Proof.PayloadAt.lean ====
/-
  The body's arithmetic read at one element, over the extended reals.

  The inner update (the third payload): the accumulator's element plus, over the 512 inner indices of the block, the
  squared rectified pre-activation times the down matrix's element; the pre-activation is the token row against the up
  matrix's row, both matrix products contracting their operands' second axes. The outer update (the fourth payload): the
  outer accumulator's element plus the row's combine weight for the point's expert times the inner accumulator's element;
  the weight is picked out of the row's eight by a sum against a 0/1 mask, of which one term survives. The two resets
  (the first and second payloads) are zero everywhere.
-/
import proofs.«168739_j6605659701708_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«168739_j6605659701708_1_alg».proof.Proof.LibDotRowRow

noncomputable section

namespace Cert.KernelIdeal.PayAt

open Cert.KernelIdeal Cert.KernelIdeal.Gen Idealize.ShloMosaic Idealize.ShloMosaic.ValueIdx

/-- The reset of the outer accumulator is zero at every element. -/
theorem pay1_at (y : S512x2048.Idx) : (k0_pay1 (F := Ideal)) y = 0 := by
  unfold k0_pay1
  rw [shapeCast_self]
  exact Ideal.ofBits_zero_f32

/-- The reset of the inner accumulator is zero at every element. -/
theorem pay2_at (y : S512x2048.Idx) : (k0_pay2 (F := Ideal)) y = 0 := by
  unfold k0_pay2
  rw [shapeCast_self]
  exact Ideal.ofBits_zero_f32

/-- The pre-activation at (p, i): the token row p against row i of the up matrix's block, the product contracting
    both operands' second axes into a zero accumulator. -/
private theorem pre_at (x0 : FVec Ideal S512x2048 .bf16) (x1 : FVec Ideal S1x512x2048 .bf16) (p i : Fin 512) :
    matmul dot_S512x2048_S512x2048_S512x512_1_1_0_0_n_n none (shapeCast S512x2048 x0 shapeCasts_S512x2048_S512x2048)
        (shapeCast S512x2048 x1 shapeCasts_S1x512x2048_S512x2048) (constant S512x512 .f32 0x00000000#32) (ix2 p i)
      = ∑ h : Fin 2048, x0 (ix2 p h) * x1 (ix3 (0 : Fin 1) i h) := by
  refine (Ideal.matmul_constant_zero_apply _ none _ _ (ix2 p i)).trans ?_
  refine (DotRowRow.sum_eq dot_S512x2048_S512x2048_S512x512_1_1_0_0_n_n rfl rfl rfl rfl rfl rfl _ _ p i).trans ?_
  refine Finset.sum_congr rfl fun h _ => ?_
  rw [shapeCast_self, shapeCast_1ab_ab_apply]

/-- The down projection's block sum at (p, j): any activation a [512, 512] against the down matrix's block, the
    product contracting both operands' second axes into a zero accumulator. -/
private theorem down_at (a : FVec Ideal S512x512 .bf16) (x2 : FVec Ideal S1x2048x512 .bf16) (p : Fin 512) (j : Fin 2048) :
    matmul dot_S512x512_S2048x512_S512x2048_1_1_0_0_n_n none a
        (shapeCast S2048x512 x2 shapeCasts_S1x2048x512_S2048x512) (constant S512x2048 .f32 0x00000000#32) (ix2 p j)
      = ∑ i : Fin 512, a (ix2 p i) * x2 (ix3 (0 : Fin 1) j i) := by
  refine (Ideal.matmul_constant_zero_apply _ none _ _ (ix2 p j)).trans ?_
  refine (DotRowRow.sum_eq dot_S512x512_S2048x512_S512x2048_1_1_0_0_n_n rfl rfl rfl rfl rfl rfl _ _ p j).trans ?_
  refine Finset.sum_congr rfl fun i _ => ?_
  rw [shapeCast_1ab_ab_apply]

/-- The inner update at element (p, j). -/
theorem pay3_at (x0 : FVec Ideal S512x2048 .bf16) (x1 : FVec Ideal S1x512x2048 .bf16) (x2 : FVec Ideal S1x2048x512 .bf16)
    (acc : FVec Ideal S512x2048 .f32) (p : Fin 512) (j : Fin 2048) :
    k0_pay3 x0 x1 x2 acc (ix2 p j)
      = acc (ix2 p j) + ∑ i : Fin 512,
          (max (∑ h : Fin 2048, x0 (ix2 p h) * x1 (ix3 (0 : Fin 1) i h)) 0 * max (∑ h : Fin 2048, x0 (ix2 p h) * x1 (ix3 (0 : Fin 1) i h)) 0)
            * x2 (ix3 (0 : Fin 1) j i) := by
  unfold k0_pay3
  rw [shapeCast_self, addf_apply]
  refine congrArg (acc (ix2 p j) + ·) ?_
  refine (down_at _ x2 p j).trans ?_
  refine Finset.sum_congr rfl fun i _ => ?_
  rw [truncf_apply, mulf_apply, maximumf_apply, broadcast_apply, pre_at x0 x1 p i]
  rw [show (FloatOps.ofBits FTy.f32 0x00000000#32 : Ideal .f32) = 0 from Ideal.ofBits_zero_f32]

/-- A vector [a] viewed as a column [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over [a, b] reads, at (i, j), the operand's one entry of row i. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum over the eight lanes of a [512, 8] array, read at row p. -/
private theorem lane_sum (src : FVec Ideal S512x8 .f32) (hacc : (0x00000000#32 : BitVec 32) = 0x00000000#32) (p : Fin 512) :
    multiReduction .add [1] S512 src 0x00000000#32 reduces_S512x8_S512 (.inl rfl) hacc (ix1 p)
      = ∑ k : Fin 8, src (ix2 p k) := by
  refine (Ideal.multiReduction_add_single src 0x00000000#32 reduces_S512x8_S512 (.inl rfl) hacc (ix1 p)).trans ?_
  refine Finset.sum_congr rfl fun k _ => congrArg src ?_
  funext a
  match a with
  | ⟨0, _⟩ => rfl
  | ⟨1, _⟩ => rfl

/-- The 0/1 mask at lane k, at a point whose expert coordinate is e: one at k = e, zero elsewhere. The lane number and
    the coordinate are both below eight, so their 32-bit words are equal exactly when the numbers are; the compare's bit,
    widened to a word and converted, is the integer 1 or 0. -/
private theorem mask_at (i : grid0.Coords) (e : Fin 8) (he : (i 1).val = e.val) (k : Fin 8) :
    (sitofp .f32 (extui 32 (cmpi .eq (iota .tc S1x8 32 [1] iota_S1x8_d1_w32) (broadcast S1x8 (BitVec.ofNat 32 (i 1).val))) natLt_1_32)
        : FVec Ideal S1x8 .f32) (ix2 (0 : Fin 1) k) = if k = e then 1 else 0 := by
  have key : ∀ (n : ℕ) (k e : Fin 8), n = e.val →
      ((IntOp.cmpi .eq (BitVec.ofNat 32 k.val) (BitVec.ofNat 32 n)).setWidth 32).toInt = if k = e then 1 else 0 := by
    intro n k e h
    subst h
    revert k e
    decide
  rw [sitofp_apply, extui_apply]
  show FloatOps.sitofp (F := Ideal) .f32 ((IntOp.cmpi .eq (iota .tc S1x8 32 [1] iota_S1x8_d1_w32 (ix2 (0 : Fin 1) k)) (BitVec.ofNat 32 (i 1).val)).setWidth 32) = _
  rw [iota_single_apply]
  show ((((((IntOp.cmpi .eq (BitVec.ofNat 32 k.val) (BitVec.ofNat 32 (i 1).val)).setWidth 32).toInt : ℤ) : ℝ) : EReal)) = _
  rw [key _ k e he]
  split <;> simp

/-- The outer update at element (p, j), at a point whose expert coordinate is e. -/
theorem pay4_at (i : grid0.Coords) (e : Fin 8) (he : (i 1).val = e.val) (x3 : FVec Ideal S512x8 .f32)
    (ao ay : FVec Ideal S512x2048 .f32) (p : Fin 512) (j : Fin 2048) :
    k0_pay4 i x3 ao ay (ix2 p j) = ao (ix2 p j) + x3 (ix2 p e) * ay (ix2 p j) := by
  unfold k0_pay4
  rw [shapeCast_self, addf_apply, mulf_apply]
  refine congrArg (fun w => ao (ix2 p j) + w * ay (ix2 p j)) ?_
  refine (broadcastTo_a1_ab_apply _ _ p j).trans ?_
  refine (shapeCast_a_a1_apply _ _ p (0 : Fin 1)).trans ?_
  refine (lane_sum _ rfl p).trans ?_
  refine (Finset.sum_eq_single e (fun k _ hk => ?_) (fun h => absurd (Finset.mem_univ e) h)).trans ?_
  · rw [mulf_apply, shapeCast_self, broadcastTo_1b_ab_apply, mask_at i e he k, if_neg hk, mul_zero]
  · rw [mulf_apply, shapeCast_self, broadcastTo_1b_ab_apply, mask_at i e he e, if_pos rfl, mul_one]

end Cert.KernelIdeal.PayAt

end
-- ==== Proof.Blocks.lean ====
/-
  What the body loads at a grid point, in terms of the program's arguments.

  Grid point t = 64·b + 8·e + k stands for token tile b (of 16), expert e (of 8) and inner block k (of 8). At that point
  the body finds in its four input blocks:
    the token rows 512b … 512b + 511 of the hidden states (converted to a narrower float format on the way, which over
      the extended reals changes nothing);
    rows 512k … 512k + 511 of expert e's up matrix (all 2048 columns);
    columns 512k … 512k + 511 of expert e's down matrix (all 2048 rows);
    the same token rows of the combine weights, which the operations before the call compute from the routing indices
      and weights (comb: that computation, carried as one function and never opened).
-/
import proofs.«168739_j6605659701708_1_alg».proof.Proof.Gen.KernelIdeal.Frame
import proofs.«168739_j6605659701708_1_alg».proof.Proof.MoeSpec
import Idealize.ShloMosaic.Lib.Pipeline.Value
import Idealize.ShloMosaic.Lib.ValueIdx
import Idealize.ShloMosaic.Lib.StableHlo.Run

noncomputable section

namespace Cert.KernelIdeal.Blk

open Cert.KernelIdeal Cert.KernelIdeal.Gen Idealize.ShloMosaic Idealize.ShloMosaic.TcCoe Idealize.SL.Sem
open Idealize.ShloMosaic.ValueIdx

/-- The combine weights [8192, 8] as the operations before the call compute them from the routing indices [8192, 2]
    and the routing weights [8192, 2]: per token and expert, the sum over the two slots of (slot routed to the expert,
    as 0 or 1) times the slot's weight, from zero. Carried as one function of the two arguments. -/
def comb {F : FTy → Type} [FloatOps F] (a1 : (⟨S8192x2, .i32⟩ : BufTy).Contents (Elt F)) (a2 : (⟨S8192x2, .f32⟩ : BufTy).Contents (Elt F)) :
    (⟨S8192x8, .f32⟩ : BufTy).Contents (Elt F) :=
  Host.reduceAdd
    (mulf
      (uitofp .f32 (cmpi .eq
        (broadcastInDim S8192x2x8 ![0, 1, 2] bcast_S8192x2x1_S8192x2x8_0_1_2 (broadcastInDim S8192x2x1 ![0, 1] bcast_S8192x2_S8192x2x1_0_1 a1))
        (broadcastInDim S8192x2x8 ![0, 1, 2] bcast_S1x1x8_S8192x2x8_0_1_2 (broadcastInDim S1x1x8 ![2] bcast_S8_S1x1x8_2 (iotaInDim S8 32 0)))))
      (broadcastInDim S8192x2x8 ![0, 1, 2] bcast_S8192x2x1_S8192x2x8_0_1_2 (broadcastInDim S8192x2x1 ![0, 1] bcast_S8192x2_S8192x2x1_0_1 a2)))
    (constant S_ .f32 0x00000000#32) reducesTo_S8192x2x8_S8192x8_d1 h_S_

/-- The token tile of grid point t. -/
def tile (t : Fin cfg0.N) : Fin 16 := ⟨t.val / 64, by have h := t.isLt; have hN : cfg0.N = 1024 := N_0; omega⟩

variable (m : (ℓ : Loc nD τ sig) → Buf (Elt Ideal) ℓ)

/-- The expert coordinate of grid point t is (t / 8) mod 8. -/
theorem coords1 (t : Fin cfg0.N) : (grid0.coords t 1).val = t.val / 8 % 8 :=
  (by decide +kernel : ∀ t : Fin grid0.N, (grid0.coords t 1).val = t.val / 8 % 8) t

/-- Window 0's block index at point t: (t / 64, 0), decided over the 1024 points. -/
private theorem idx0 : ∀ t : Fin cfg0.N, win0_0.index t (0 : Fin 2) = t.val / 64 ∧ win0_0.index t (1 : Fin 2) = 0 :=
  (by decide +kernel : ∀ t : Fin grid0.N, win0_0.index t (0 : Fin 2) = t.val / 64 ∧ win0_0.index t (1 : Fin 2) = 0)

/-- Window 1's block index at point t: ((t / 8) mod 8, t mod 8, 0). -/
private theorem idx1 : ∀ t : Fin cfg0.N, win0_1.index t (0 : Fin 3) = t.val / 8 % 8 ∧ win0_1.index t (1 : Fin 3) = t.val % 8
    ∧ win0_1.index t (2 : Fin 3) = 0 :=
  (by decide +kernel : ∀ t : Fin grid0.N, win0_1.index t (0 : Fin 3) = t.val / 8 % 8 ∧ win0_1.index t (1 : Fin 3) = t.val % 8
    ∧ win0_1.index t (2 : Fin 3) = 0)

/-- Window 2's block index at point t: ((t / 8) mod 8, 0, t mod 8). -/
private theorem idx2 : ∀ t : Fin cfg0.N, win0_2.index t (0 : Fin 3) = t.val / 8 % 8 ∧ win0_2.index t (1 : Fin 3) = 0
    ∧ win0_2.index t (2 : Fin 3) = t.val % 8 :=
  (by decide +kernel : ∀ t : Fin grid0.N, win0_2.index t (0 : Fin 3) = t.val / 8 % 8 ∧ win0_2.index t (1 : Fin 3) = 0
    ∧ win0_2.index t (2 : Fin 3) = t.val % 8)

/-- Window 3's block index at point t: (t / 64, 0). -/
private theorem idx3 : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)

/-- The hidden states as the call finds them: the argument, its format narrowed. -/
private theorem V11 (c : Dev nD) : @Eq (FVec Ideal S8192x2048 .bf16) (V m c main_v11)
    (truncf .bf16 (m ((c : Thread nD τ).loc main_arg0)) bitsLt_bf16_f32) := by
  dsimp only [Gen.V, Gen.hostOps0]; after_results

/-- The up matrices as the call finds them: the argument, its format narrowed. -/
private theorem V12 (c : Dev nD) : @Eq (FVec Ideal S8x4096x2048 .bf16) (V m c main_v12)
    (truncf .bf16 (m ((c : Thread nD τ).loc main_arg3)) bitsLt_bf16_f32) := by
  dsimp only [Gen.V, Gen.hostOps0]; after_results

/-- The down matrices as the call finds them: the argument, its format narrowed. -/
private theorem V13 (c : Dev nD) : @Eq (FVec Ideal S8x2048x4096 .bf16) (V m c main_v13)
    (truncf .bf16 (m ((c : Thread nD τ).loc main_arg4)) bitsLt_bf16_f32) := by
  dsimp only [Gen.V, Gen.hostOps0]; after_results

/-- The combine weights as the call finds them: the operations before it, applied to the routing indices and weights. -/
private theorem V10 (c : Dev nD) : @Eq (FVec Ideal S8192x8 .f32) (V m c main_v10)
    (comb (m ((c : Thread nD τ).loc main_arg1)) (m ((c : Thread nD τ).loc main_arg2))) := by
  unfold comb
  dsimp only [Gen.V, Gen.hostOps0]; after_results

/-- Hidden-state block at point t, element (p, h): token 512·(t / 64) + p, column h. -/
theorem iblk0_at (c : Dev nD) (t : Fin cfg0.N) (p : Fin 512) (h : Fin 2048) :
    (iblk m c 0 t : Vec Ideal S512x2048 .bf16) (ix2 p h)
      = m ((c : Thread nD τ).loc main_arg0) (ix2 (Moe.tok (tile t) p) h) := by
  unfold iblk
  rw [View.read_apply]
  show V m c main_v11 (((cfg0.win 0).blk t).view.emb (ix2 p h)) = _
  rw [V11 m c, truncf_apply]
  refine congrArg (m ((c : Thread nD τ).loc main_arg0)) ?_
  funext a
  apply Fin.ext
  match a with
  | ⟨0, _⟩ =>
    show win0_0.index t 0 * 512 + 1 * p.val = 512 * (t.val / 64) + p.val
    rw [(idx0 t).1]; omega
  | ⟨1, _⟩ =>
    show win0_0.index t 1 * 2048 + 1 * h.val = h.val
    rw [(idx0 t).2]; omega

/-- Up-matrix block at point t, element (0, i, h): expert (t / 8) mod 8, row 512·(t mod 8) + i, column h. -/
theorem iblk1_at (c : Dev nD) (t : Fin cfg0.N) (i : Fin 512) (h : Fin 2048) :
    (iblk m c 1 t : Vec Ideal S1x512x2048 .bf16) (ix3 (0 : Fin 1) i h)
      = m ((c : Thread nD τ).loc main_arg3) (ix3 (Moe.f8 (t.val / 8)) (Moe.inner (Moe.f8 t.val) i) h) := by
  unfold iblk
  rw [View.read_apply]
  show V m c main_v12 (((cfg0.win 1).blk t).view.emb (ix3 (0 : Fin 1) i h)) = _
  rw [V12 m c, truncf_apply]
  refine congrArg (m ((c : Thread nD τ).loc main_arg3)) ?_
  funext a
  apply Fin.ext
  match a with
  | ⟨0, _⟩ =>
    show win0_1.index t 0 * 1 + 1 * 0 = t.val / 8 % 8
    rw [(idx1 t).1]; omega
  | ⟨1, _⟩ =>
    show win0_1.index t 1 * 512 + 1 * i.val = 512 * (t.val % 8) + i.val
    rw [(idx1 t).2.1]; omega
  | ⟨2, _⟩ =>
    show win0_1.index t 2 * 2048 + 1 * h.val = h.val
    rw [(idx1 t).2.2]; omega

/-- Down-matrix block at point t, element (0, j, i): expert (t / 8) mod 8, row j, column 512·(t mod 8) + i. -/
theorem iblk2_at (c : Dev nD) (t : Fin cfg0.N) (j : Fin 2048) (i : Fin 512) :
    (iblk m c 2 t : Vec Ideal S1x2048x512 .bf16) (ix3 (0 : Fin 1) j i)
      = m ((c : Thread nD τ).loc main_arg4) (ix3 (Moe.f8 (t.val / 8)) j (Moe.inner (Moe.f8 t.val) i)) := by
  unfold iblk
  rw [View.read_apply]
  show V m c main_v13 (((cfg0.win 2).blk t).view.emb (ix3 (0 : Fin 1) j i)) = _
  rw [V13 m c, truncf_apply]
  refine congrArg (m ((c : Thread nD τ).loc main_arg4)) ?_
  funext a
  apply Fin.ext
  match a with
  | ⟨0, _⟩ =>
    show win0_2.index t 0 * 1 + 1 * 0 = t.val / 8 % 8
    rw [(idx2 t).1]; omega
  | ⟨1, _⟩ =>
    show win0_2.index t 1 * 2048 + 1 * j.val = j.val
    rw [(idx2 t).2.1]; omega
  | ⟨2, _⟩ =>
    show win0_2.index t 2 * 512 + 1 * i.val = 512 * (t.val % 8) + i.val
    rw [(idx2 t).2.2]; omega

/-- Combine-weight block at point t, element (p, e): token 512·(t / 64) + p, expert e. -/
theorem iblk3_at (c : Dev nD) (t : Fin cfg0.N) (p : Fin 512) (e : Fin 8) :
    (iblk m c 3 t : Vec Ideal S512x8 .f32) (ix2 p e)
      = comb (m ((c : Thread nD τ).loc main_arg1)) (m ((c : Thread nD τ).loc main_arg2)) (ix2 (Moe.tok (tile t) p) e) := by
  unfold iblk
  rw [View.read_apply]
  show V m c main_v10 (((cfg0.win 3).blk t).view.emb (ix2 p e)) = _
  rw [V10 m c]
  refine congrArg (comb (m ((c : Thread nD τ).loc main_arg1)) (m ((c : Thread nD τ).loc main_arg2))) ?_
  funext a
  apply Fin.ext
  match a with
  | ⟨0, _⟩ =>
    show win0_3.index t 0 * 512 + 1 * p.val = 512 * (t.val / 64) + p.val
    rw [(idx3 t).1]; omega
  | ⟨1, _⟩ =>
    show win0_3.index t 1 * 8 + 1 * e.val = e.val
    rw [(idx3 t).2]; omega

end Cert.KernelIdeal.Blk

end
-- ==== Proof.Invariant.lean ====
/-
  The two accumulators after every grid point, element by element.

  Grid point t = 64·b + 8·e + k stands for token tile b, expert e and inner block k. For the token 512·b + p of the
  tile and the hidden column j:
    the inner accumulator after point t is the running sum of expert e's down projection over blocks 0 … k;
    the outer accumulator after point t is the running result over experts 0 … e - 1, and over expert e too once its
      last block (k = 7) is in.
  By induction on the point: a point whose inner block is 0 starts the inner sum from zero, a point with k = 7 adds the
  expert's finished projection, scaled by the token's combine weight for it, to the outer sum, and the tile's first
  point starts the outer sum from zero. At a tile's last point the output block is the finished outer sum.
-/
import proofs.«168739_j6605659701708_1_alg».proof.Proof.Gen.KernelIdeal.Frame
import proofs.«168739_j6605659701708_1_alg».proof.Proof.MoeSpec
import proofs.«168739_j6605659701708_1_alg».proof.Proof.Pieces
import proofs.«168739_j6605659701708_1_alg».proof.Proof.PayloadAt
import proofs.«168739_j6605659701708_1_alg».proof.Proof.Blocks

noncomputable section

namespace Cert.KernelIdeal.Inv

open Cert.KernelIdeal Cert.KernelIdeal.Gen Idealize.ShloMosaic Idealize.ShloMosaic.TcCoe Idealize.SL.Sem
open Idealize.ShloMosaic.ValueIdx
open Cert.KernelIdeal.Blk (comb tile)

variable (m : (ℓ : Loc nD τ sig) → Buf (Elt Ideal) ℓ)

/-- The hidden states, the up and down matrices, and the combine weights, as the specification takes them. -/
abbrev aX (c : Dev nD) : Moe.SX.Idx → EReal := m ((c : Thread nD τ).loc main_arg0)
abbrev aU (c : Dev nD) : Moe.SU.Idx → EReal := m ((c : Thread nD τ).loc main_arg3)
abbrev aD (c : Dev nD) : Moe.SD.Idx → EReal := m ((c : Thread nD τ).loc main_arg4)
abbrev aC (c : Dev nD) : Moe.SC.Idx → EReal := comb (m ((c : Thread nD τ).loc main_arg1)) (m ((c : Thread nD τ).loc main_arg2))

/-- The four input blocks at a point, at their literal shapes. -/
abbrev b0 (c : Dev nD) (t : Fin cfg0.N) : FVec Ideal S512x2048 .bf16 := iblk m c 0 t
abbrev b1 (c : Dev nD) (t : Fin cfg0.N) : FVec Ideal S1x512x2048 .bf16 := iblk m c 1 t
abbrev b2 (c : Dev nD) (t : Fin cfg0.N) : FVec Ideal S1x2048x512 .bf16 := iblk m c 2 t
abbrev b3 (c : Dev nD) (t : Fin cfg0.N) : FVec Ideal S512x8 .f32 := iblk m c 3 t

/-- The inner accumulator, the outer accumulator and the output block after point n. -/
abbrev accY (c : Dev nD) (n : ℕ) (h : n < cfg0.N) : FVec Ideal S512x2048 .f32 := (outsAt0 m c n h).2.1
abbrev accO (c : Dev nD) (n : ℕ) (h : n < cfg0.N) : FVec Ideal S512x2048 .f32 := (outsAt0 m c n h).2.2
abbrev outB (c : Dev nD) (n : ℕ) (h : n < cfg0.N) : FVec Ideal S512x2048 .f32 := (outsAt0 m c n h).1

theorem pred_lt (t : Fin cfg0.N) : t.val - 1 < cfg0.N := Nat.lt_of_le_of_lt (Nat.sub_le _ _) t.isLt

/-! ## One point's update of the accumulators, case by case -/

theorem stepA (c : Dev nD) (t : Fin cfg0.N) (h0 : t.val % 64 = 0) (h1 : t.val % 8 = 0) (h2 : ¬t.val % 8 = 7) (h3 : ¬t.val % 64 = 63) :
    accY m c t.val t.isLt = k0_pay3 (b0 m c t) (b1 m c t) (b2 m c t) (k0_pay2 (F := Ideal))
    ∧ accO m c t.val t.isLt = k0_pay1 (F := Ideal) := by
  constructor
  · show (outsAt0 m c t.val t.isLt).2.1 = _
    rw [outsAt0_A m c t h0 h1 h2 h3]; dsimp only
    exact Pieces.sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)
  · show (outsAt0 m c t.val t.isLt).2.2 = _
    rw [outsAt0_A m c t h0 h1 h2 h3]; dsimp only
    exact Pieces.sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)

theorem stepB (c : Dev nD) (t : Fin cfg0.N) (h0 : ¬t.val % 64 = 0) (h1 : ¬t.val % 8 = 0) (h2 : ¬t.val % 8 = 7) (h3 : ¬t.val % 64 = 63) :
    accY m c t.val t.isLt = k0_pay3 (b0 m c t) (b1 m c t) (b2 m c t) (accY m c (t.val - 1) (pred_lt t))
    ∧ accO m c t.val t.isLt = accO m c (t.val - 1) (pred_lt t) := by
  constructor
  · show (outsAt0 m c t.val t.isLt).2.1 = _
    rw [outsAt0_B m c t h0 h1 h2 h3]; dsimp only
    exact Pieces.sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (pred_lt t)).2.1 (outsAt0 m c (t.val - 1) (pred_lt t)).2.2
  · show (outsAt0 m c t.val t.isLt).2.2 = _
    rw [outsAt0_B m c t h0 h1 h2 h3]; dsimp only
    exact Pieces.sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (pred_lt t)).2.1 (outsAt0 m c (t.val - 1) (pred_lt t)).2.2

theorem stepC (c : Dev nD) (t : Fin cfg0.N) (h0 : ¬t.val % 64 = 0) (h1 : ¬t.val % 8 = 0) (h2 : t.val % 8 = 7) (h3 : ¬t.val % 64 = 63) :
    accY m c t.val t.isLt = k0_pay3 (b0 m c t) (b1 m c t) (b2 m c t) (accY m c (t.val - 1) (pred_lt t))
    ∧ accO m c t.val t.isLt = k0_pay4 (grid0.coords t) (b3 m c t) (accO m c (t.val - 1) (pred_lt t))
        (k0_pay3 (b0 m c t) (b1 m c t) (b2 m c t) (accY m c (t.val - 1) (pred_lt t))) := by
  constructor
  · show (outsAt0 m c t.val t.isLt).2.1 = _
    rw [outsAt0_C m c t h0 h1 h2 h3]; dsimp only
    exact Pieces.sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (pred_lt t)).2.1 (outsAt0 m c (t.val - 1) (pred_lt t)).2.2
  · show (outsAt0 m c t.val t.isLt).2.2 = _
    rw [outsAt0_C m c t h0 h1 h2 h3]; dsimp only
    exact Pieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (pred_lt t)).2.1 (outsAt0 m c (t.val - 1) (pred_lt t)).2.2

theorem stepD (c : Dev nD) (t : Fin cfg0.N) (h0 : ¬t.val % 64 = 0) (h1 : t.val % 8 = 0) (h2 : ¬t.val % 8 = 7) (h3 : ¬t.val % 64 = 63) :
    accY m c t.val t.isLt = k0_pay3 (b0 m c t) (b1 m c t) (b2 m c t) (k0_pay2 (F := Ideal))
    ∧ accO m c t.val t.isLt = accO m c (t.val - 1) (pred_lt t) := by
  constructor
  · show (outsAt0 m c t.val t.isLt).2.1 = _
    rw [outsAt0_D m c t h0 h1 h2 h3]; dsimp only
    exact Pieces.sD0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (pred_lt t)).2.2
  · show (outsAt0 m c t.val t.isLt).2.2 = _
    rw [outsAt0_D m c t h0 h1 h2 h3]; dsimp only
    exact Pieces.sD1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (pred_lt t)).2.2

theorem stepE (c : Dev nD) (t : Fin cfg0.N) (h0 : ¬t.val % 64 = 0) (h1 : ¬t.val % 8 = 0) (h2 : t.val % 8 = 7) (h3 : t.val % 64 = 63) :
    accY m c t.val t.isLt = k0_pay3 (b0 m c t) (b1 m c t) (b2 m c t) (accY m c (t.val - 1) (pred_lt t))
    ∧ accO m c t.val t.isLt = k0_pay4 (grid0.coords t) (b3 m c t) (accO m c (t.val - 1) (pred_lt t))
        (k0_pay3 (b0 m c t) (b1 m c t) (b2 m c t) (accY m c (t.val - 1) (pred_lt t)))
    ∧ outB m c t.val t.isLt = accO m c t.val t.isLt := by
  have eO : accO m c t.val t.isLt = k0_pay4 (grid0.coords t) (b3 m c t) (accO m c (t.val - 1) (pred_lt t))
        (k0_pay3 (b0 m c t) (b1 m c t) (b2 m c t) (accY m c (t.val - 1) (pred_lt t))) := by
    show (outsAt0 m c t.val t.isLt).2.2 = _
    rw [outsAt0_E m c t h0 h1 h2 h3]; dsimp only
    exact Pieces.sE1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (pred_lt t)).2.1 (outsAt0 m c (t.val - 1) (pred_lt t)).2.2
  refine ⟨?_, eO, ?_⟩
  · show (outsAt0 m c t.val t.isLt).2.1 = _
    rw [outsAt0_E m c t h0 h1 h2 h3]; dsimp only
    exact Pieces.sE0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (pred_lt t)).2.1 (outsAt0 m c (t.val - 1) (pred_lt t)).2.2
  · refine Eq.trans ?_ eO.symm
    show (outsAt0 m c t.val t.isLt).1 = _
    rw [outsAt0_E m c t h0 h1 h2 h3]; dsimp only
    exact Pieces.oE4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (pred_lt t)).2.1 (outsAt0 m c (t.val - 1) (pred_lt t)).2.2

/-! ## The updates at an element, with the blocks read from the arguments -/

/-- The inner update at element (p, j): one more block of the expert's down projection. -/
theorem pay3_blocks (c : Dev nD) (t : Fin cfg0.N) (acc : FVec Ideal S512x2048 .f32) (p : Fin 512) (j : Fin 2048) :
    k0_pay3 (b0 m c t) (b1 m c t) (b2 m c t) acc (ix2 p j)
      = acc (ix2 p j) + Moe.yblock (aX m c) (aU m c) (aD m c) (Moe.f8 (t.val / 8)) (Moe.tok (tile t) p) j (Moe.f8 t.val) := by
  refine (PayAt.pay3_at (b0 m c t) (b1 m c t) (b2 m c t) acc p j).trans ?_
  refine congrArg (acc (ix2 p j) + ·) ?_
  unfold Moe.yblock Moe.dterm Moe.act Moe.pre
  refine Finset.sum_congr rfl fun i _ => ?_
  have hs : (∑ h : Fin 2048, b0 m c t (ix2 p h) * b1 m c t (ix3 (0 : Fin 1) i h))
      = ∑ h : Fin 2048, aX m c (ix2 (Moe.tok (tile t) p) h) * aU m c (ix3 (Moe.f8 (t.val / 8)) (Moe.inner (Moe.f8 t.val) i) h) :=
    Finset.sum_congr rfl fun h _ => by
      rw [show b0 m c t (ix2 p h) = aX m c (ix2 (Moe.tok (tile t) p) h) from Blk.iblk0_at m c t p h,
        show b1 m c t (ix3 (0 : Fin 1) i h) = aU m c (ix3 (Moe.f8 (t.val / 8)) (Moe.inner (Moe.f8 t.val) i) h) from Blk.iblk1_at m c t i h]
  rw [hs, show b2 m c t (ix3 (0 : Fin 1) j i) = aD m c (ix3 (Moe.f8 (t.val / 8)) j (Moe.inner (Moe.f8 t.val) i)) from Blk.iblk2_at m c t j i]

/-- The outer update at element (p, j): the token's combine weight for the point's expert times the inner sum. -/
theorem pay4_blocks (c : Dev nD) (t : Fin cfg0.N) (ao ay : FVec Ideal S512x2048 .f32) (p : Fin 512) (j : Fin 2048) :
    k0_pay4 (grid0.coords t) (b3 m c t) ao ay (ix2 p j)
      = ao (ix2 p j) + aC m c (ix2 (Moe.tok (tile t) p) (Moe.f8 (t.val / 8))) * ay (ix2 p j) := by
  refine (PayAt.pay4_at (grid0.coords t) (Moe.f8 (t.val / 8)) (Blk.coords1 t) (b3 m c t) ao ay p j).trans ?_
  rw [show b3 m c t (ix2 p (Moe.f8 (t.val / 8))) = aC m c (ix2 (Moe.tok (tile t) p) (Moe.f8 (t.val / 8))) from Blk.iblk3_at m c t p (Moe.f8 (t.val / 8))]

/-! ## One point's step of the invariant -/

/-- From what the point before left (the inner sum over blocks 0 … k - 1 when k > 0; the outer sum over experts
    0 … e - 1 when the point is not its tile's first) to what point t = 64·b + 8·e + k leaves. -/
theorem inv_step (c : Dev nD) (p : Fin 512) (j : Fin 2048) (t : Fin cfg0.N) (b : Fin 16) (e : Fin 8)
    (hb : b.val = t.val / 64) (he : e.val = t.val / 8 % 8)
    (ihY : ¬t.val % 8 = 0 → accY m c (t.val - 1) (pred_lt t) (ix2 p j)
        = Moe.ysum (aX m c) (aU m c) (aD m c) e (Moe.tok b p) j (t.val % 8))
    (ihO : ¬t.val % 64 = 0 → accO m c (t.val - 1) (pred_lt t) (ix2 p j)
        = Moe.outAcc (aX m c) (aC m c) (aU m c) (aD m c) (Moe.tok b p) j e.val) :
    accY m c t.val t.isLt (ix2 p j) = Moe.ysum (aX m c) (aU m c) (aD m c) e (Moe.tok b p) j (t.val % 8 + 1)
    ∧ accO m c t.val t.isLt (ix2 p j)
        = Moe.outAcc (aX m c) (aC m c) (aU m c) (aD m c) (Moe.tok b p) j (if t.val % 8 = 7 then e.val + 1 else e.val) := by
  have tb : tile t = b := Fin.ext hb.symm
  have te : Moe.f8 (t.val / 8) = e := Fin.ext he.symm
  have tk : Moe.f8 t.val = Moe.f8 (t.val % 8) := Fin.ext (Nat.mod_mod _ _).symm
  have fe : Moe.f8 e.val = e := Fin.ext (Nat.mod_eq_of_lt e.isLt)
  -- the inner update from a given earlier value
  have updY : ∀ (acc : FVec Ideal S512x2048 .f32) (v : EReal), acc (ix2 p j) = v →
      k0_pay3 (F := Ideal) (b0 m c t) (b1 m c t) (b2 m c t) acc (ix2 p j)
        = v + Moe.yblock (aX m c) (aU m c) (aD m c) e (Moe.tok b p) j (Moe.f8 (t.val % 8)) := fun acc v hv => by
    rw [pay3_blocks m c t acc p j, hv, tb, te, tk]
  -- a point whose inner block is 0 starts from zero
  have startY : k0_pay3 (F := Ideal) (b0 m c t) (b1 m c t) (b2 m c t) (k0_pay2 (F := Ideal)) (ix2 p j)
      = (0 : EReal) + Moe.yblock (aX m c) (aU m c) (aD m c) e (Moe.tok b p) j (Moe.f8 (t.val % 8)) :=
    updY _ 0 (PayAt.pay2_at _)
  by_cases h0 : t.val % 64 = 0 <;> by_cases h1 : t.val % 8 = 0 <;> by_cases h2 : t.val % 8 = 7 <;> by_cases h3 : t.val % 64 = 63
  all_goals first | (exfalso; omega) | skip
  · -- first expert, first block
    obtain ⟨eY, eO⟩ := stepA m c t h0 h1 h2 h3
    refine ⟨?_, ?_⟩
    · rw [eY, startY, h1]; rfl
    · rw [eO, PayAt.pay1_at, if_neg h2]
      have e0 : e.val = 0 := by omega
      rw [e0]; rfl
  · -- later expert, first block
    obtain ⟨eY, eO⟩ := stepD m c t h0 h1 h2 h3
    refine ⟨?_, ?_⟩
    · rw [eY, startY, h1]; rfl
    · rw [eO, ihO h0, if_neg h2]
  · -- last block, last expert
    obtain ⟨eY, eO, -⟩ := stepE m c t h0 h1 h2 h3
    have hY : k0_pay3 (F := Ideal) (b0 m c t) (b1 m c t) (b2 m c t) (accY m c (t.val - 1) (pred_lt t)) (ix2 p j)
        = Moe.ysum (aX m c) (aU m c) (aD m c) e (Moe.tok b p) j (t.val % 8 + 1) := by
      rw [updY _ _ (ihY h1)]; rfl
    refine ⟨by rw [eY, hY], ?_⟩
    rw [eO, pay4_blocks m c t _ _ p j, ihO h0, hY, tb, te, if_pos h2, h2, Moe.ysum_eight, Moe.outAcc_succ, fe]
  · -- last block, not the last expert
    obtain ⟨eY, eO⟩ := stepC m c t h0 h1 h2 h3
    have hY : k0_pay3 (F := Ideal) (b0 m c t) (b1 m c t) (b2 m c t) (accY m c (t.val - 1) (pred_lt t)) (ix2 p j)
        = Moe.ysum (aX m c) (aU m c) (aD m c) e (Moe.tok b p) j (t.val % 8 + 1) := by
      rw [updY _ _ (ihY h1)]; rfl
    refine ⟨by rw [eY, hY], ?_⟩
    rw [eO, pay4_blocks m c t _ _ p j, ihO h0, hY, tb, te, if_pos h2, h2, Moe.ysum_eight, Moe.outAcc_succ, fe]
  · -- a middle block
    obtain ⟨eY, eO⟩ := stepB m c t h0 h1 h2 h3
    refine ⟨?_, ?_⟩
    · rw [eY, updY _ _ (ihY h1)]; rfl
    · rw [eO, ihO h0, if_neg h2]

/-! ## The invariant at every point -/

/-- After point n = 64·b + 8·e + k: the inner sum over blocks 0 … k of expert e, the outer sum over the experts done. -/
theorem inv (c : Dev nD) (p : Fin 512) (j : Fin 2048) : ∀ (n : ℕ) (h : n < cfg0.N),
    accY m c n h (ix2 p j)
      = Moe.ysum (aX m c) (aU m c) (aD m c) (Moe.f8 (n / 8)) (Moe.tok (tile ⟨n, h⟩) p) j (n % 8 + 1)
    ∧ accO m c n h (ix2 p j)
      = Moe.outAcc (aX m c) (aC m c) (aU m c) (aD m c) (Moe.tok (tile ⟨n, h⟩) p) j (if n % 8 = 7 then n / 8 % 8 + 1 else n / 8 % 8) := by
  have hN : cfg0.N = 1024 := N_0
  intro n
  induction n with
  | zero =>
    intro h
    exact inv_step m c p j ⟨0, h⟩ (tile ⟨0, h⟩) (Moe.f8 (0 / 8)) rfl rfl (fun hh => absurd rfl hh) (fun hh => absurd rfl hh)
  | succ n ih =>
    intro h
    have hn : n < cfg0.N := Nat.lt_of_succ_lt h
    obtain ⟨ihY, ihO⟩ := ih hn
    refine inv_step m c p j ⟨n + 1, h⟩ (tile ⟨n + 1, h⟩) (Moe.f8 ((n + 1) / 8)) rfl rfl (fun h1 => ?_) (fun h0 => ?_)
    · -- the point before is in the same tile and expert, one block earlier
      have h1' : ¬(n + 1) % 8 = 0 := h1
      have e1 : Moe.f8 (n / 8) = Moe.f8 ((n + 1) / 8) := Fin.ext (by show n / 8 % 8 = (n + 1) / 8 % 8; omega)
      have e2 : tile ⟨n, hn⟩ = tile ⟨n + 1, h⟩ := Fin.ext (by show n / 64 = (n + 1) / 64; omega)
      have e3 : n % 8 + 1 = (n + 1) % 8 := by omega
      rw [e1, e2, e3] at ihY
      exact ihY
    · -- the point before is in the same tile; its experts done are this point's expert number
      have h0' : ¬(n + 1) % 64 = 0 := h0
      have e2 : tile ⟨n, hn⟩ = tile ⟨n + 1, h⟩ := Fin.ext (by show n / 64 = (n + 1) / 64; omega)
      have e4 : (if n % 8 = 7 then n / 8 % 8 + 1 else n / 8 % 8) = (Moe.f8 ((n + 1) / 8)).val := by
        show _ = (n + 1) / 8 % 8
        split <;> omega
      rw [e2, e4] at ihO
      exact ihO

/-- At a tile's last point the output block is the finished result: all eight experts. -/
theorem out_at_last (c : Dev nD) (p : Fin 512) (j : Fin 2048) (t : Fin cfg0.N) (h3 : t.val % 64 = 63) :
    outB m c t.val t.isLt (ix2 p j) = Moe.outAcc (aX m c) (aC m c) (aU m c) (aD m c) (Moe.tok (tile t) p) j 8 := by
  obtain ⟨-, -, eB⟩ := stepE m c t (by omega) (by omega) (by omega) h3
  rw [eB, (inv m c p j t.val t.isLt).2, if_pos (by omega)]
  have e8 : t.val / 8 % 8 + 1 = 8 := by omega
  rw [e8]

end Cert.KernelIdeal.Inv

end
-- ==== Proof.KernelValue.lean ====
/-
  The kernel's result array after the run is the specification of the arguments.

  The output's block for token tile b is written back once, at the tile's last grid point 64·b + 63, and holds there the
  finished outer sum: all eight experts, for the tile's 512 tokens and all 2048 hidden columns. Block b sits at rows
  512·b … 512·b + 511 of the [8192, 2048] result, all columns; the sixteen blocks tile the array, so every element of
  the result is its row's token's and its column's value of the specification.
-/
import proofs.«168739_j6605659701708_1_alg».proof.Proof.Gen.KernelIdeal.Value
import proofs.«168739_j6605659701708_1_alg».proof.Proof.Invariant

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Blk (comb tile)

variable (m : (ℓ : Loc nD τ sig) → Buf (Elt Ideal) ℓ) (ρ : Dev nD → PrngReg)

/-- What the result array ends holding: the specification of the argument arrays, the combine weights those the
    operations before the call compute. -/
abbrev result (c : Dev nD) : Buf (Elt Ideal) ((c : Thread nD τ).loc main_v14) :=
  Moe.moe (Inv.aX m c) (Inv.aC m c) (Inv.aU m c) (Inv.aD m c)

/-- The output's block index at point t: the token tile on the row axis, zero on the column axis. -/
theorem idx_out : ∀ t : Fin cfg0.N, win0_4.index t (0 : Fin 2) = t.val / 64 ∧ win0_4.index t (1 : Fin 2) = 0 :=
  (by decide +kernel : ∀ t : Fin grid0.N, win0_4.index t (0 : Fin 2) = t.val / 64 ∧ win0_4.index t (1 : Fin 2) = 0)

/-- What a tile's last point writes back is the tile's block of the specification. -/
theorem flushed_eq (c : Dev nD) (t : Fin cfg0.N) (hf : (cfg0.win 4).flush t = true) :
    (dats m 0 c).flushed 4 t = ((cfg0.win 4).blk t).view.read (Elt Ideal) (result m c) := by
  have h63 : t.val % 64 = 63 := (flush0_4 t).mp hf
  rw [Value.flushed4]
  funext y
  obtain ⟨p, j, rfl⟩ : ∃ (p : Fin 512) (j : Fin 2048), y = ix2 p j := ⟨y 0, y 1, eq_ix2 y⟩
  show (outsAt0 m c t.val t.isLt).1 (ix2 p j) = result m c (((cfg0.win 4).blk t).view.emb (ix2 p j))
  have hemb : ((cfg0.win 4).blk t).view.emb (ix2 p j) = ix2 (Moe.tok (tile t) p) j := by
    funext a; apply Fin.ext
    match a with
    | ⟨0, _⟩ => show win0_4.index t (0 : Fin 2) * 512 + 1 * p.val = 512 * (t.val / 64) + p.val; rw [(idx_out t).1]; omega
    | ⟨1, _⟩ => show win0_4.index t (1 : Fin 2) * 2048 + 1 * j.val = j.val; rw [(idx_out t).2]; omega
  rw [hemb]
  exact (Inv.out_at_last m c p j t h63).trans (Moe.moe_apply _ _ _ _ _ _).symm

/-- An element of the result is in point t's block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v14).slice (win0_4.rect t)).set ↔ _
  rw [View.set_slice_whole, Rect.mem_set_unit]
  exact Iff.rfl

/-- Every element of the result lies in the block some tile's last point writes back: row r in tile r / 512. -/
theorem cover (i : S8192x2048.Idx) : ∃ t : Fin cfg0.N, (cfg0.win 4).flush t = true ∧ i ∈ ((cfg0.win 4).blk t).view.set := by
  have hN : cfg0.N = 1024 := N_0
  have hi0 : (i 0).val < 8192 := (i 0).isLt
  have hi1 : (i 1).val < 2048 := (i 1).isLt
  obtain ⟨t, tv⟩ : ∃ t : Fin cfg0.N, t.val = 64 * ((i 0).val / 512) + 63 := ⟨⟨64 * ((i 0).val / 512) + 63, by omega⟩, rfl⟩
  refine ⟨t, (flush0_4 t).mpr (by omega), ?_⟩
  rw [mem_blk]
  obtain ⟨q0, q1⟩ := idx_out t
  intro a
  match a with
  | ⟨0, _⟩ => show win0_4.index t (0 : Fin 2) * 512 ≤ (i 0).val ∧ (i 0).val < win0_4.index t (0 : Fin 2) * 512 + 512; rw [q0]; omega
  | ⟨1, _⟩ => show win0_4.index t (1 : Fin 2) * 2048 ≤ (i 1).val ∧ (i 1).val < win0_4.index t (1 : Fin 2) * 2048 + 2048; rw [q1]; omega

/-- The result array after the run. -/
theorem final (c : Dev nD) : (dats m 0 c).arrAt 4 cfg0.N = result m c :=
  (dats m 0 c).arrAt_eq_of_cover 4 (result m c) (fun t hf => flushed_eq m c t hf) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefSiblings.lean ====
import proofs.«168739_j6605659701708_1_alg».proof.Proof.Gen.ReferenceIdeal.Read
import proofs.«168739_j6605659701708_1_alg».proof.Proof.MoeSpec

noncomputable section

namespace Cert.ReferenceIdeal.RefValue

open Cert.ReferenceIdeal Cert.ReferenceIdeal.Gen Cert.ReferenceIdeal.Read Idealize.ShloMosaic Idealize.ShloMosaic.ValueIdx

/-- Expert 1's up matrix, sliced out, flattened and transposed, read at (h, i): the matrix's entry (1, i, h). -/
private theorem up1 (x3 : (⟨S8x4096x2048, .f32⟩ : BufTy).Contents (Elt Ideal)) (h : Fin 2048) (i : Fin 4096) :
    val_main_v28 (F := Ideal) x3 (ix2 h i) = x3 (ix3 (Moe.f8 1) i h) := by
  rw [val_main_v28_apply, val_main_v27_apply, val_main_v26_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 1's down matrix, sliced out, flattened and transposed, read at (i, j): the matrix's entry (1, j, i). -/
private theorem down1 (x4 : (⟨S8x2048x4096, .f32⟩ : BufTy).Contents (Elt Ideal)) (i : Fin 4096) (j : Fin 2048) :
    val_main_v34 (F := Ideal) x4 (ix2 i j) = x4 (ix3 (Moe.f8 1) j i) := by
  rw [val_main_v34_apply, val_main_v33_apply, val_main_v32_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 1's contraction of the tokens with the transposed up matrix is the pre-activation. -/
private theorem pre1 (x0 : (⟨S8192x2048, .f32⟩ : BufTy).Contents (Elt Ideal)) (x3 : (⟨S8x4096x2048, .f32⟩ : BufTy).Contents (Elt Ideal)) (t : Fin 8192) (i : Fin 4096) :
    val_main_v29 (F := Ideal) x0 x3 (ix2 t i) = Moe.pre x0 x3 (Moe.f8 1) t i := by
  rw [val_main_v29_apply]
  unfold Moe.pre
  refine Finset.sum_congr rfl fun h _ => ?_
  have el : lidx_main_v29 (ix2 t i) h = ix2 t h :=
    funext fun a => Fin.ext (by match a with | ⟨0, _⟩ => rfl | ⟨1, _⟩ => rfl)
  have er : ridx_main_v29 (ix2 t i) h = ix2 h i :=
    funext fun a => Fin.ext (by match a with | ⟨0, _⟩ => rfl | ⟨1, _⟩ => rfl)
  rw [el, er, up1]

/-- Expert 1's rectified and squared pre-activation is the activation. -/
private theorem act1 (x0 : (⟨S8192x2048, .f32⟩ : BufTy).Contents (Elt Ideal)) (x3 : (⟨S8x4096x2048, .f32⟩ : BufTy).Contents (Elt Ideal)) (t : Fin 8192) (i : Fin 4096) :
    val_main_v31 (F := Ideal) x0 x3 (ix2 t i) = Moe.act x0 x3 (Moe.f8 1) t i := by
  rw [val_main_v31_apply, val_main_v30_apply, val_main_call1_v0_apply, val_main_call1_cst_apply, pre1]
  simp only [Ideal.mulf_def, Ideal.maximumf_def, Ideal.ofBits_def, Ideal.ofBits_zero_f32]
  rfl

/-- Expert 1's contraction of the activations with the transposed down matrix is the down projection. -/
private theorem proj1 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v35 (F := Ideal) x0 x3 x4 (ix2 t j) = Moe.yfull x0 x3 x4 (Moe.f8 1) t j := by
  rw [val_main_v35_apply]
  unfold Moe.yfull Moe.dterm
  refine Finset.sum_congr rfl fun i _ => ?_
  have el : lidx_main_v35 (ix2 t j) i = ix2 t i :=
    funext fun a => Fin.ext (by match a with | ⟨0, _⟩ => rfl | ⟨1, _⟩ => rfl)
  have er : ridx_main_v35 (ix2 t j) i = ix2 i j :=
    funext fun a => Fin.ext (by match a with | ⟨0, _⟩ => rfl | ⟨1, _⟩ => rfl)
  rw [el, er, act1, down1]

/-- Column 1 of the combine weights, broadcast along the hidden axis, is the token's weight for expert 1. -/
private theorem wt1 (x1 : (⟨S8192x2, .i32⟩ : BufTy).Contents (Elt Ideal)) (x2 : (⟨S8192x2, .f32⟩ : BufTy).Contents (Elt Ideal)) (t : Fin 8192) (j : Fin 2048) :
    val_main_v37 (F := Ideal) x1 x2 (ix2 t j) = val_main_v10 (F := Ideal) x1 x2 (ix2 t (Moe.f8 1)) := by
  rw [val_main_v37_apply, val_main_v36_apply]
  exact congrArg (val_main_v10 (F := Ideal) x1 x2)
    (funext fun a => Fin.ext (by match a with | ⟨0, _⟩ => rfl | ⟨1, _⟩ => rfl))

/-- The running result after expert 1: the one before plus the weight times the down projection. -/
theorem step1 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v39 (F := Ideal) x0 x1 x2 x3 x4 (ix2 t j) =
      val_main_v25 (F := Ideal) x0 x1 x2 x3 x4 (ix2 t j) +
        val_main_v10 (F := Ideal) x1 x2 (ix2 t (Moe.f8 1)) * Moe.yfull x0 x3 x4 (Moe.f8 1) t j := by
  rw [val_main_v39_apply, val_main_v38_apply, wt1, proj1]
  rfl

/-- Expert 2's up matrix, sliced out, flattened and transposed, read at (h, i): the matrix's entry (2, i, h). -/
private theorem up2 (x3 : (⟨S8x4096x2048, .f32⟩ : BufTy).Contents (Elt Ideal)) (h : Fin 2048) (i : Fin 4096) :
    val_main_v42 (F := Ideal) x3 (ix2 h i) = x3 (ix3 (Moe.f8 2) i h) := by
  rw [val_main_v42_apply, val_main_v41_apply, val_main_v40_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 2's down matrix, sliced out, flattened and transposed, read at (i, j): the matrix's entry (2, j, i). -/
private theorem down2 (x4 : (⟨S8x2048x4096, .f32⟩ : BufTy).Contents (Elt Ideal)) (i : Fin 4096) (j : Fin 2048) :
    val_main_v48 (F := Ideal) x4 (ix2 i j) = x4 (ix3 (Moe.f8 2) j i) := by
  rw [val_main_v48_apply, val_main_v47_apply, val_main_v46_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 2's contraction of the tokens with the transposed up matrix is the pre-activation. -/
private theorem pre2 (x0 : (⟨S8192x2048, .f32⟩ : BufTy).Contents (Elt Ideal)) (x3 : (⟨S8x4096x2048, .f32⟩ : BufTy).Contents (Elt Ideal)) (t : Fin 8192) (i : Fin 4096) :
    val_main_v43 (F := Ideal) x0 x3 (ix2 t i) = Moe.pre x0 x3 (Moe.f8 2) t i := by
  rw [val_main_v43_apply]
  unfold Moe.pre
  refine Finset.sum_congr rfl fun h _ => ?_
  have el : lidx_main_v43 (ix2 t i) h = ix2 t h :=
    funext fun a => Fin.ext (by match a with | ⟨0, _⟩ => rfl | ⟨1, _⟩ => rfl)
  have er : ridx_main_v43 (ix2 t i) h = ix2 h i :=
    funext fun a => Fin.ext (by match a with | ⟨0, _⟩ => rfl | ⟨1, _⟩ => rfl)
  rw [el, er, up2]

/-- Expert 2's rectified and squared pre-activation is the activation. -/
private theorem act2 (x0 : (⟨S8192x2048, .f32⟩ : BufTy).Contents (Elt Ideal)) (x3 : (⟨S8x4096x2048, .f32⟩ : BufTy).Contents (Elt Ideal)) (t : Fin 8192) (i : Fin 4096) :
    val_main_v45 (F := Ideal) x0 x3 (ix2 t i) = Moe.act x0 x3 (Moe.f8 2) t i := by
  rw [val_main_v45_apply, val_main_v44_apply, val_main_call2_v0_apply, val_main_call2_cst_apply, pre2]
  simp only [Ideal.mulf_def, Ideal.maximumf_def, Ideal.ofBits_def, Ideal.ofBits_zero_f32]
  rfl

/-- Expert 2's contraction of the activations with the transposed down matrix is the down projection. -/
private theorem proj2 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v49 (F := Ideal) x0 x3 x4 (ix2 t j) = Moe.yfull x0 x3 x4 (Moe.f8 2) t j := by
  rw [val_main_v49_apply]
  unfold Moe.yfull Moe.dterm
  refine Finset.sum_congr rfl fun i _ => ?_
  have el : lidx_main_v49 (ix2 t j) i = ix2 t i :=
    funext fun a => Fin.ext (by match a with | ⟨0, _⟩ => rfl | ⟨1, _⟩ => rfl)
  have er : ridx_main_v49 (ix2 t j) i = ix2 i j :=
    funext fun a => Fin.ext (by match a with | ⟨0, _⟩ => rfl | ⟨1, _⟩ => rfl)
  rw [el, er, act2, down2]

/-- Column 2 of the combine weights, broadcast along the hidden axis, is the token's weight for expert 2. -/
private theorem wt2 (x1 : (⟨S8192x2, .i32⟩ : BufTy).Contents (Elt Ideal)) (x2 : (⟨S8192x2, .f32⟩ : BufTy).Contents (Elt Ideal)) (t : Fin 8192) (j : Fin 2048) :
    val_main_v51 (F := Ideal) x1 x2 (ix2 t j) = val_main_v10 (F := Ideal) x1 x2 (ix2 t (Moe.f8 2)) := by
  rw [val_main_v51_apply, val_main_v50_apply]
  exact congrArg (val_main_v10 (F := Ideal) x1 x2)
    (funext fun a => Fin.ext (by match a with | ⟨0, _⟩ => rfl | ⟨1, _⟩ => rfl))

/-- The running result after expert 2: the one before plus the weight times the down projection. -/
theorem step2 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v53 (F := Ideal) x0 x1 x2 x3 x4 (ix2 t j) =
      val_main_v39 (F := Ideal) x0 x1 x2 x3 x4 (ix2 t j) +
        val_main_v10 (F := Ideal) x1 x2 (ix2 t (Moe.f8 2)) * Moe.yfull x0 x3 x4 (Moe.f8 2) t j := by
  rw [val_main_v53_apply, val_main_v52_apply, wt2, proj2]
  rfl

/-- Expert 3's up matrix, sliced out, flattened and transposed, read at (h, i): the matrix's entry (3, i, h). -/
private theorem up3 (x3 : (⟨S8x4096x2048, .f32⟩ : BufTy).Contents (Elt Ideal)) (h : Fin 2048) (i : Fin 4096) :
    val_main_v56 (F := Ideal) x3 (ix2 h i) = x3 (ix3 (Moe.f8 3) i h) := by
  rw [val_main_v56_apply, val_main_v55_apply, val_main_v54_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 3's down matrix, sliced out, flattened and transposed, read at (i, j): the matrix's entry (3, j, i). -/
private theorem down3 (x4 : (⟨S8x2048x4096, .f32⟩ : BufTy).Contents (Elt Ideal)) (i : Fin 4096) (j : Fin 2048) :
    val_main_v62 (F := Ideal) x4 (ix2 i j) = x4 (ix3 (Moe.f8 3) j i) := by
  rw [val_main_v62_apply, val_main_v61_apply, val_main_v60_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 3's contraction of the tokens with the transposed up matrix is the pre-activation. -/
private theorem pre3 (x0 : (⟨S8192x2048, .f32⟩ : BufTy).Contents (Elt Ideal)) (x3 : (⟨S8x4096x2048, .f32⟩ : BufTy).Contents (Elt Ideal)) (t : Fin 8192) (i : Fin 4096) :
    val_main_v57 (F := Ideal) x0 x3 (ix2 t i) = Moe.pre x0 x3 (Moe.f8 3) t i := by
  rw [val_main_v57_apply]
  unfold Moe.pre
  refine Finset.sum_congr rfl fun h _ => ?_
  have el : lidx_main_v57 (ix2 t i) h = ix2 t h :=
    funext fun a => Fin.ext (by match a with | ⟨0, _⟩ => rfl | ⟨1, _⟩ => rfl)
  have er : ridx_main_v57 (ix2 t i) h = ix2 h i :=
    funext fun a => Fin.ext (by match a with | ⟨0, _⟩ => rfl | ⟨1, _⟩ => rfl)
  rw [el, er, up3]

/-- Expert 3's rectified and squared pre-activation is the activation. -/
private theorem act3 (x0 : (⟨S8192x2048, .f32⟩ : BufTy).Contents (Elt Ideal)) (x3 : (⟨S8x4096x2048, .f32⟩ : BufTy).Contents (Elt Ideal)) (t : Fin 8192) (i : Fin 4096) :
    val_main_v59 (F := Ideal) x0 x3 (ix2 t i) = Moe.act x0 x3 (Moe.f8 3) t i := by
  rw [val_main_v59_apply, val_main_v58_apply, val_main_call3_v0_apply, val_main_call3_cst_apply, pre3]
  simp only [Ideal.mulf_def, Ideal.maximumf_def, Ideal.ofBits_def, Ideal.ofBits_zero_f32]
  rfl

/-- Expert 3's contraction of the activations with the transposed down matrix is the down projection. -/
private theorem proj3 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v63 (F := Ideal) x0 x3 x4 (ix2 t j) = Moe.yfull x0 x3 x4 (Moe.f8 3) t j := by
  rw [val_main_v63_apply]
  unfold Moe.yfull Moe.dterm
  refine Finset.sum_congr rfl fun i _ => ?_
  have el : lidx_main_v63 (ix2 t j) i = ix2 t i :=
    funext fun a => Fin.ext (by match a with | ⟨0, _⟩ => rfl | ⟨1, _⟩ => rfl)
  have er : ridx_main_v63 (ix2 t j) i = ix2 i j :=
    funext fun a => Fin.ext (by match a with | ⟨0, _⟩ => rfl | ⟨1, _⟩ => rfl)
  rw [el, er, act3, down3]

/-- Column 3 of the combine weights, broadcast along the hidden axis, is the token's weight for expert 3. -/
private theorem wt3 (x1 : (⟨S8192x2, .i32⟩ : BufTy).Contents (Elt Ideal)) (x2 : (⟨S8192x2, .f32⟩ : BufTy).Contents (Elt Ideal)) (t : Fin 8192) (j : Fin 2048) :
    val_main_v65 (F := Ideal) x1 x2 (ix2 t j) = val_main_v10 (F := Ideal) x1 x2 (ix2 t (Moe.f8 3)) := by
  rw [val_main_v65_apply, val_main_v64_apply]
  exact congrArg (val_main_v10 (F := Ideal) x1 x2)
    (funext fun a => Fin.ext (by match a with | ⟨0, _⟩ => rfl | ⟨1, _⟩ => rfl))

/-- The running result after expert 3: the one before plus the weight times the down projection. -/
theorem step3 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v67 (F := Ideal) x0 x1 x2 x3 x4 (ix2 t j) =
      val_main_v53 (F := Ideal) x0 x1 x2 x3 x4 (ix2 t j) +
        val_main_v10 (F := Ideal) x1 x2 (ix2 t (Moe.f8 3)) * Moe.yfull x0 x3 x4 (Moe.f8 3) t j := by
  rw [val_main_v67_apply, val_main_v66_apply, wt3, proj3]
  rfl

/-- Expert 4's up matrix, sliced out, flattened and transposed, read at (h, i): the matrix's entry (4, i, h). -/
private theorem up4 (x3 : (⟨S8x4096x2048, .f32⟩ : BufTy).Contents (Elt Ideal)) (h : Fin 2048) (i : Fin 4096) :
    val_main_v70 (F := Ideal) x3 (ix2 h i) = x3 (ix3 (Moe.f8 4) i h) := by
  rw [val_main_v70_apply, val_main_v69_apply, val_main_v68_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 4's down matrix, sliced out, flattened and transposed, read at (i, j): the matrix's entry (4, j, i). -/
private theorem down4 (x4 : (⟨S8x2048x4096, .f32⟩ : BufTy).Contents (Elt Ideal)) (i : Fin 4096) (j : Fin 2048) :
    val_main_v76 (F := Ideal) x4 (ix2 i j) = x4 (ix3 (Moe.f8 4) j i) := by
  rw [val_main_v76_apply, val_main_v75_apply, val_main_v74_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 4's contraction of the tokens with the transposed up matrix is the pre-activation. -/
private theorem pre4 (x0 : (⟨S8192x2048, .f32⟩ : BufTy).Contents (Elt Ideal)) (x3 : (⟨S8x4096x2048, .f32⟩ : BufTy).Contents (Elt Ideal)) (t : Fin 8192) (i : Fin 4096) :
    val_main_v71 (F := Ideal) x0 x3 (ix2 t i) = Moe.pre x0 x3 (Moe.f8 4) t i := by
  rw [val_main_v71_apply]
  unfold Moe.pre
  refine Finset.sum_congr rfl fun h _ => ?_
  have el : lidx_main_v71 (ix2 t i) h = ix2 t h :=
    funext fun a => Fin.ext (by match a with | ⟨0, _⟩ => rfl | ⟨1, _⟩ => rfl)
  have er : ridx_main_v71 (ix2 t i) h = ix2 h i :=
    funext fun a => Fin.ext (by match a with | ⟨0, _⟩ => rfl | ⟨1, _⟩ => rfl)
  rw [el, er, up4]

/-- Expert 4's rectified and squared pre-activation is the activation. -/
private theorem act4 (x0 : (⟨S8192x2048, .f32⟩ : BufTy).Contents (Elt Ideal)) (x3 : (⟨S8x4096x2048, .f32⟩ : BufTy).Contents (Elt Ideal)) (t : Fin 8192) (i : Fin 4096) :
    val_main_v73 (F := Ideal) x0 x3 (ix2 t i) = Moe.act x0 x3 (Moe.f8 4) t i := by
  rw [val_main_v73_apply, val_main_v72_apply, val_main_call4_v0_apply, val_main_call4_cst_apply, pre4]
  simp only [Ideal.mulf_def, Ideal.maximumf_def, Ideal.ofBits_def, Ideal.ofBits_zero_f32]
  rfl

/-- Expert 4's contraction of the activations with the transposed down matrix is the down projection. -/
private theorem proj4 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v77 (F := Ideal) x0 x3 x4 (ix2 t j) = Moe.yfull x0 x3 x4 (Moe.f8 4) t j := by
  rw [val_main_v77_apply]
  unfold Moe.yfull Moe.dterm
  refine Finset.sum_congr rfl fun i _ => ?_
  have el : lidx_main_v77 (ix2 t j) i = ix2 t i :=
    funext fun a => Fin.ext (by match a with | ⟨0, _⟩ => rfl | ⟨1, _⟩ => rfl)
  have er : ridx_main_v77 (ix2 t j) i = ix2 i j :=
    funext fun a => Fin.ext (by match a with | ⟨0, _⟩ => rfl | ⟨1, _⟩ => rfl)
  rw [el, er, act4, down4]

/-- Column 4 of the combine weights, broadcast along the hidden axis, is the token's weight for expert 4. -/
private theorem wt4 (x1 : (⟨S8192x2, .i32⟩ : BufTy).Contents (Elt Ideal)) (x2 : (⟨S8192x2, .f32⟩ : BufTy).Contents (Elt Ideal)) (t : Fin 8192) (j : Fin 2048) :
    val_main_v79 (F := Ideal) x1 x2 (ix2 t j) = val_main_v10 (F := Ideal) x1 x2 (ix2 t (Moe.f8 4)) := by
  rw [val_main_v79_apply, val_main_v78_apply]
  exact congrArg (val_main_v10 (F := Ideal) x1 x2)
    (funext fun a => Fin.ext (by match a with | ⟨0, _⟩ => rfl | ⟨1, _⟩ => rfl))

/-- The running result after expert 4: the one before plus the weight times the down projection. -/
theorem step4 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v81 (F := Ideal) x0 x1 x2 x3 x4 (ix2 t j) =
      val_main_v67 (F := Ideal) x0 x1 x2 x3 x4 (ix2 t j) +
        val_main_v10 (F := Ideal) x1 x2 (ix2 t (Moe.f8 4)) * Moe.yfull x0 x3 x4 (Moe.f8 4) t j := by
  rw [val_main_v81_apply, val_main_v80_apply, wt4, proj4]
  rfl

/-- Expert 5's up matrix, sliced out, flattened and transposed, read at (h, i): the matrix's entry (5, i, h). -/
private theorem up5 (x3 : (⟨S8x4096x2048, .f32⟩ : BufTy).Contents (Elt Ideal)) (h : Fin 2048) (i : Fin 4096) :
    val_main_v84 (F := Ideal) x3 (ix2 h i) = x3 (ix3 (Moe.f8 5) i h) := by
  rw [val_main_v84_apply, val_main_v83_apply, val_main_v82_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 5's down matrix, sliced out, flattened and transposed, read at (i, j): the matrix's entry (5, j, i). -/
private theorem down5 (x4 : (⟨S8x2048x4096, .f32⟩ : BufTy).Contents (Elt Ideal)) (i : Fin 4096) (j : Fin 2048) :
    val_main_v90 (F := Ideal) x4 (ix2 i j) = x4 (ix3 (Moe.f8 5) j i) := by
  rw [val_main_v90_apply, val_main_v89_apply, val_main_v88_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 5's contraction of the tokens with the transposed up matrix is the pre-activation. -/
private theorem pre5 (x0 : (⟨S8192x2048, .f32⟩ : BufTy).Contents (Elt Ideal)) (x3 : (⟨S8x4096x2048, .f32⟩ : BufTy).Contents (Elt Ideal)) (t : Fin 8192) (i : Fin 4096) :
    val_main_v85 (F := Ideal) x0 x3 (ix2 t i) = Moe.pre x0 x3 (Moe.f8 5) t i := by
  rw [val_main_v85_apply]
  unfold Moe.pre
  refine Finset.sum_congr rfl fun h _ => ?_
  have el : lidx_main_v85 (ix2 t i) h = ix2 t h :=
    funext fun a => Fin.ext (by match a with | ⟨0, _⟩ => rfl | ⟨1, _⟩ => rfl)
  have er : ridx_main_v85 (ix2 t i) h = ix2 h i :=
    funext fun a => Fin.ext (by match a with | ⟨0, _⟩ => rfl | ⟨1, _⟩ => rfl)
  rw [el, er, up5]

/-- Expert 5's rectified and squared pre-activation is the activation. -/
private theorem act5 (x0 : (⟨S8192x2048, .f32⟩ : BufTy).Contents (Elt Ideal)) (x3 : (⟨S8x4096x2048, .f32⟩ : BufTy).Contents (Elt Ideal)) (t : Fin 8192) (i : Fin 4096) :
    val_main_v87 (F := Ideal) x0 x3 (ix2 t i) = Moe.act x0 x3 (Moe.f8 5) t i := by
  rw [val_main_v87_apply, val_main_v86_apply, val_main_call5_v0_apply, val_main_call5_cst_apply, pre5]
  simp only [Ideal.mulf_def, Ideal.maximumf_def, Ideal.ofBits_def, Ideal.ofBits_zero_f32]
  rfl

/-- Expert 5's contraction of the activations with the transposed down matrix is the down projection. -/
private theorem proj5 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v91 (F := Ideal) x0 x3 x4 (ix2 t j) = Moe.yfull x0 x3 x4 (Moe.f8 5) t j := by
  rw [val_main_v91_apply]
  unfold Moe.yfull Moe.dterm
  refine Finset.sum_congr rfl fun i _ => ?_
  have el : lidx_main_v91 (ix2 t j) i = ix2 t i :=
    funext fun a => Fin.ext (by match a with | ⟨0, _⟩ => rfl | ⟨1, _⟩ => rfl)
  have er : ridx_main_v91 (ix2 t j) i = ix2 i j :=
    funext fun a => Fin.ext (by match a with | ⟨0, _⟩ => rfl | ⟨1, _⟩ => rfl)
  rw [el, er, act5, down5]

/-- Column 5 of the combine weights, broadcast along the hidden axis, is the token's weight for expert 5. -/
private theorem wt5 (x1 : (⟨S8192x2, .i32⟩ : BufTy).Contents (Elt Ideal)) (x2 : (⟨S8192x2, .f32⟩ : BufTy).Contents (Elt Ideal)) (t : Fin 8192) (j : Fin 2048) :
    val_main_v93 (F := Ideal) x1 x2 (ix2 t j) = val_main_v10 (F := Ideal) x1 x2 (ix2 t (Moe.f8 5)) := by
  rw [val_main_v93_apply, val_main_v92_apply]
  exact congrArg (val_main_v10 (F := Ideal) x1 x2)
    (funext fun a => Fin.ext (by match a with | ⟨0, _⟩ => rfl | ⟨1, _⟩ => rfl))

/-- The running result after expert 5: the one before plus the weight times the down projection. -/
theorem step5 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v95 (F := Ideal) x0 x1 x2 x3 x4 (ix2 t j) =
      val_main_v81 (F := Ideal) x0 x1 x2 x3 x4 (ix2 t j) +
        val_main_v10 (F := Ideal) x1 x2 (ix2 t (Moe.f8 5)) * Moe.yfull x0 x3 x4 (Moe.f8 5) t j := by
  rw [val_main_v95_apply, val_main_v94_apply, wt5, proj5]
  rfl

/-- Expert 6's up matrix, sliced out, flattened and transposed, read at (h, i): the matrix's entry (6, i, h). -/
private theorem up6 (x3 : (⟨S8x4096x2048, .f32⟩ : BufTy).Contents (Elt Ideal)) (h : Fin 2048) (i : Fin 4096) :
    val_main_v98 (F := Ideal) x3 (ix2 h i) = x3 (ix3 (Moe.f8 6) i h) := by
  rw [val_main_v98_apply, val_main_v97_apply, val_main_v96_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 6's down matrix, sliced out, flattened and transposed, read at (i, j): the matrix's entry (6, j, i). -/
private theorem down6 (x4 : (⟨S8x2048x4096, .f32⟩ : BufTy).Contents (Elt Ideal)) (i : Fin 4096) (j : Fin 2048) :
    val_main_v104 (F := Ideal) x4 (ix2 i j) = x4 (ix3 (Moe.f8 6) j i) := by
  rw [val_main_v104_apply, val_main_v103_apply, val_main_v102_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 6's contraction of the tokens with the transposed up matrix is the pre-activation. -/
private theorem pre6 (x0 : (⟨S8192x2048, .f32⟩ : BufTy).Contents (Elt Ideal)) (x3 : (⟨S8x4096x2048, .f32⟩ : BufTy).Contents (Elt Ideal)) (t : Fin 8192) (i : Fin 4096) :
    val_main_v99 (F := Ideal) x0 x3 (ix2 t i) = Moe.pre x0 x3 (Moe.f8 6) t i := by
  rw [val_main_v99_apply]
  unfold Moe.pre
  refine Finset.sum_congr rfl fun h _ => ?_
  have el : lidx_main_v99 (ix2 t i) h = ix2 t h :=
    funext fun a => Fin.ext (by match a with | ⟨0, _⟩ => rfl | ⟨1, _⟩ => rfl)
  have er : ridx_main_v99 (ix2 t i) h = ix2 h i :=
    funext fun a => Fin.ext (by match a with | ⟨0, _⟩ => rfl | ⟨1, _⟩ => rfl)
  rw [el, er, up6]

/-- Expert 6's rectified and squared pre-activation is the activation. -/
private theorem act6 (x0 : (⟨S8192x2048, .f32⟩ : BufTy).Contents (Elt Ideal)) (x3 : (⟨S8x4096x2048, .f32⟩ : BufTy).Contents (Elt Ideal)) (t : Fin 8192) (i : Fin 4096) :
    val_main_v101 (F := Ideal) x0 x3 (ix2 t i) = Moe.act x0 x3 (Moe.f8 6) t i := by
  rw [val_main_v101_apply, val_main_v100_apply, val_main_call6_v0_apply, val_main_call6_cst_apply, pre6]
  simp only [Ideal.mulf_def, Ideal.maximumf_def, Ideal.ofBits_def, Ideal.ofBits_zero_f32]
  rfl

/-- Expert 6's contraction of the activations with the transposed down matrix is the down projection. -/
private theorem proj6 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v105 (F := Ideal) x0 x3 x4 (ix2 t j) = Moe.yfull x0 x3 x4 (Moe.f8 6) t j := by
  rw [val_main_v105_apply]
  unfold Moe.yfull Moe.dterm
  refine Finset.sum_congr rfl fun i _ => ?_
  have el : lidx_main_v105 (ix2 t j) i = ix2 t i :=
    funext fun a => Fin.ext (by match a with | ⟨0, _⟩ => rfl | ⟨1, _⟩ => rfl)
  have er : ridx_main_v105 (ix2 t j) i = ix2 i j :=
    funext fun a => Fin.ext (by match a with | ⟨0, _⟩ => rfl | ⟨1, _⟩ => rfl)
  rw [el, er, act6, down6]

/-- Column 6 of the combine weights, broadcast along the hidden axis, is the token's weight for expert 6. -/
private theorem wt6 (x1 : (⟨S8192x2, .i32⟩ : BufTy).Contents (Elt Ideal)) (x2 : (⟨S8192x2, .f32⟩ : BufTy).Contents (Elt Ideal)) (t : Fin 8192) (j : Fin 2048) :
    val_main_v107 (F := Ideal) x1 x2 (ix2 t j) = val_main_v10 (F := Ideal) x1 x2 (ix2 t (Moe.f8 6)) := by
  rw [val_main_v107_apply, val_main_v106_apply]
  exact congrArg (val_main_v10 (F := Ideal) x1 x2)
    (funext fun a => Fin.ext (by match a with | ⟨0, _⟩ => rfl | ⟨1, _⟩ => rfl))

/-- The running result after expert 6: the one before plus the weight times the down projection. -/
theorem step6 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v109 (F := Ideal) x0 x1 x2 x3 x4 (ix2 t j) =
      val_main_v95 (F := Ideal) x0 x1 x2 x3 x4 (ix2 t j) +
        val_main_v10 (F := Ideal) x1 x2 (ix2 t (Moe.f8 6)) * Moe.yfull x0 x3 x4 (Moe.f8 6) t j := by
  rw [val_main_v109_apply, val_main_v108_apply, wt6, proj6]
  rfl

/-- Expert 7's up matrix, sliced out, flattened and transposed, read at (h, i): the matrix's entry (7, i, h). -/
private theorem up7 (x3 : (⟨S8x4096x2048, .f32⟩ : BufTy).Contents (Elt Ideal)) (h : Fin 2048) (i : Fin 4096) :
    val_main_v112 (F := Ideal) x3 (ix2 h i) = x3 (ix3 (Moe.f8 7) i h) := by
  rw [val_main_v112_apply, val_main_v111_apply, val_main_v110_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 7's down matrix, sliced out, flattened and transposed, read at (i, j): the matrix's entry (7, j, i). -/
private theorem down7 (x4 : (⟨S8x2048x4096, .f32⟩ : BufTy).Contents (Elt Ideal)) (i : Fin 4096) (j : Fin 2048) :
    val_main_v118 (F := Ideal) x4 (ix2 i j) = x4 (ix3 (Moe.f8 7) j i) := by
  rw [val_main_v118_apply, val_main_v117_apply, val_main_v116_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 7's contraction of the tokens with the transposed up matrix is the pre-activation. -/
private theorem pre7 (x0 : (⟨S8192x2048, .f32⟩ : BufTy).Contents (Elt Ideal)) (x3 : (⟨S8x4096x2048, .f32⟩ : BufTy).Contents (Elt Ideal)) (t : Fin 8192) (i : Fin 4096) :
    val_main_v113 (F := Ideal) x0 x3 (ix2 t i) = Moe.pre x0 x3 (Moe.f8 7) t i := by
  rw [val_main_v113_apply]
  unfold Moe.pre
  refine Finset.sum_congr rfl fun h _ => ?_
  have el : lidx_main_v113 (ix2 t i) h = ix2 t h :=
    funext fun a => Fin.ext (by match a with | ⟨0, _⟩ => rfl | ⟨1, _⟩ => rfl)
  have er : ridx_main_v113 (ix2 t i) h = ix2 h i :=
    funext fun a => Fin.ext (by match a with | ⟨0, _⟩ => rfl | ⟨1, _⟩ => rfl)
  rw [el, er, up7]

/-- Expert 7's rectified and squared pre-activation is the activation. -/
private theorem act7 (x0 : (⟨S8192x2048, .f32⟩ : BufTy).Contents (Elt Ideal)) (x3 : (⟨S8x4096x2048, .f32⟩ : BufTy).Contents (Elt Ideal)) (t : Fin 8192) (i : Fin 4096) :
    val_main_v115 (F := Ideal) x0 x3 (ix2 t i) = Moe.act x0 x3 (Moe.f8 7) t i := by
  rw [val_main_v115_apply, val_main_v114_apply, val_main_call7_v0_apply, val_main_call7_cst_apply, pre7]
  simp only [Ideal.mulf_def, Ideal.maximumf_def, Ideal.ofBits_def, Ideal.ofBits_zero_f32]
  rfl

/-- Expert 7's contraction of the activations with the transposed down matrix is the down projection. -/
private theorem proj7 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v119 (F := Ideal) x0 x3 x4 (ix2 t j) = Moe.yfull x0 x3 x4 (Moe.f8 7) t j := by
  rw [val_main_v119_apply]
  unfold Moe.yfull Moe.dterm
  refine Finset.sum_congr rfl fun i _ => ?_
  have el : lidx_main_v119 (ix2 t j) i = ix2 t i :=
    funext fun a => Fin.ext (by match a with | ⟨0, _⟩ => rfl | ⟨1, _⟩ => rfl)
  have er : ridx_main_v119 (ix2 t j) i = ix2 i j :=
    funext fun a => Fin.ext (by match a with | ⟨0, _⟩ => rfl | ⟨1, _⟩ => rfl)
  rw [el, er, act7, down7]

/-- Column 7 of the combine weights, broadcast along the hidden axis, is the token's weight for expert 7. -/
private theorem wt7 (x1 : (⟨S8192x2, .i32⟩ : BufTy).Contents (Elt Ideal)) (x2 : (⟨S8192x2, .f32⟩ : BufTy).Contents (Elt Ideal)) (t : Fin 8192) (j : Fin 2048) :
    val_main_v121 (F := Ideal) x1 x2 (ix2 t j) = val_main_v10 (F := Ideal) x1 x2 (ix2 t (Moe.f8 7)) := by
  rw [val_main_v121_apply, val_main_v120_apply]
  exact congrArg (val_main_v10 (F := Ideal) x1 x2)
    (funext fun a => Fin.ext (by match a with | ⟨0, _⟩ => rfl | ⟨1, _⟩ => rfl))

/-- The running result after expert 7: the one before plus the weight times the down projection. -/
theorem step7 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v123 (F := Ideal) x0 x1 x2 x3 x4 (ix2 t j) =
      val_main_v109 (F := Ideal) x0 x1 x2 x3 x4 (ix2 t j) +
        val_main_v10 (F := Ideal) x1 x2 (ix2 t (Moe.f8 7)) * Moe.yfull x0 x3 x4 (Moe.f8 7) t j := by
  rw [val_main_v123_apply, val_main_v122_apply, wt7, proj7]
  rfl

end Cert.ReferenceIdeal.RefValue

end
-- ==== Proof.RefValue.lean ====
/-
  The reference's result, element by element, is the specification: zero, then for each of the eight experts in
  order the running result plus (the token's combine weight for the expert) times (the expert's down projection of the
  squared rectified up projection). The reference slices one expert out of each weight array, transposes it and
  contracts over the transposed axis: at an element that is the plain sum the specification writes. The combine weights
  are carried as the reference's own stage, one function of the routing indices and weights, and never opened.
-/
import proofs.«168739_j6605659701708_1_alg».proof.Proof.Gen.ReferenceIdeal.Read
import proofs.«168739_j6605659701708_1_alg».proof.Proof.MoeSpec
import proofs.«168739_j6605659701708_1_alg».proof.Proof.RefSiblings

noncomputable section

namespace Cert.ReferenceIdeal.RefValue

open Cert.ReferenceIdeal Cert.ReferenceIdeal.Gen Cert.ReferenceIdeal.Read Idealize.ShloMosaic Idealize.ShloMosaic.ValueIdx

/-- Expert 0's up matrix, sliced out, flattened and transposed, read at (h, i): the matrix's entry (0, i, h). -/
private theorem up0 (x3 : (⟨S8x4096x2048, .f32⟩ : BufTy).Contents (Elt Ideal)) (h : Fin 2048) (i : Fin 4096) :
    val_main_v14 (F := Ideal) x3 (ix2 h i) = x3 (ix3 (Moe.f8 0) i h) := by
  rw [val_main_v14_apply, val_main_v13_apply, val_main_v12_apply]
  have hh := h.isLt
  have hi := i.isLt
  refine congrArg x3 (funext fun a => Fin.ext ?_)
  match a with
  | ⟨0, _⟩ => rfl
  | ⟨1, _⟩ => show (i.val * 2048 + h.val) / 2048 % 4096 = i.val; omega
  | ⟨2, _⟩ => show (i.val * 2048 + h.val) % 2048 = h.val; omega

/-- Expert 0's down matrix, sliced out, flattened and transposed, read at (i, j): the matrix's entry (0, j, i). -/
private theorem down0 (x4 : (⟨S8x2048x4096, .f32⟩ : BufTy).Contents (Elt Ideal)) (i : Fin 4096) (j : Fin 2048) :
    val_main_v20 (F := Ideal) x4 (ix2 i j) = x4 (ix3 (Moe.f8 0) j i) := by
  rw [val_main_v20_apply, val_main_v19_apply, val_main_v18_apply]
  have hi := i.isLt
  have hj := j.isLt
  refine congrArg x4 (funext fun a => Fin.ext ?_)
  match a with
  | ⟨0, _⟩ => rfl
  | ⟨1, _⟩ => show (j.val * 4096 + i.val) / 4096 % 2048 = j.val; omega
  | ⟨2, _⟩ => show (j.val * 4096 + i.val) % 4096 = i.val; omega

/-- Expert 0's contraction of the tokens with the transposed up matrix is the pre-activation. -/
private theorem pre0 (x0 : (⟨S8192x2048, .f32⟩ : BufTy).Contents (Elt Ideal)) (x3 : (⟨S8x4096x2048, .f32⟩ : BufTy).Contents (Elt Ideal)) (t : Fin 8192) (i : Fin 4096) :
    val_main_v15 (F := Ideal) x0 x3 (ix2 t i) = Moe.pre x0 x3 (Moe.f8 0) t i := by
  rw [val_main_v15_apply]
  unfold Moe.pre
  refine Finset.sum_congr rfl fun h _ => ?_
  have el : lidx_main_v15 (ix2 t i) h = ix2 t h :=
    funext fun a => Fin.ext (by match a with | ⟨0, _⟩ => rfl | ⟨1, _⟩ => rfl)
  have er : ridx_main_v15 (ix2 t i) h = ix2 h i :=
    funext fun a => Fin.ext (by match a with | ⟨0, _⟩ => rfl | ⟨1, _⟩ => rfl)
  rw [el, er, up0]

/-- Expert 0's rectified and squared pre-activation is the activation. -/
private theorem act0 (x0 : (⟨S8192x2048, .f32⟩ : BufTy).Contents (Elt Ideal)) (x3 : (⟨S8x4096x2048, .f32⟩ : BufTy).Contents (Elt Ideal)) (t : Fin 8192) (i : Fin 4096) :
    val_main_v17 (F := Ideal) x0 x3 (ix2 t i) = Moe.act x0 x3 (Moe.f8 0) t i := by
  rw [val_main_v17_apply, val_main_v16_apply, val_main_call0_v0_apply, val_main_call0_cst_apply, pre0]
  simp only [Ideal.mulf_def, Ideal.maximumf_def, Ideal.ofBits_def, Ideal.ofBits_zero_f32]
  rfl

/-- Expert 0's contraction of the activations with the transposed down matrix is the down projection. -/
private theorem proj0 (x0 : (⟨S8192x2048, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v21 (F := Ideal) x0 x3 x4 (ix2 t j) = Moe.yfull x0 x3 x4 (Moe.f8 0) t j := by
  rw [val_main_v21_apply]
  unfold Moe.yfull Moe.dterm
  refine Finset.sum_congr rfl fun i _ => ?_
  have el : lidx_main_v21 (ix2 t j) i = ix2 t i :=
    funext fun a => Fin.ext (by match a with | ⟨0, _⟩ => rfl | ⟨1, _⟩ => rfl)
  have er : ridx_main_v21 (ix2 t j) i = ix2 i j :=
    funext fun a => Fin.ext (by match a with | ⟨0, _⟩ => rfl | ⟨1, _⟩ => rfl)
  rw [el, er, act0, down0]

/-- Column 0 of the combine weights, broadcast along the hidden axis, is the token's weight for expert 0. -/
private theorem wt0 (x1 : (⟨S8192x2, .i32⟩ : BufTy).Contents (Elt Ideal)) (x2 : (⟨S8192x2, .f32⟩ : BufTy).Contents (Elt Ideal)) (t : Fin 8192) (j : Fin 2048) :
    val_main_v23 (F := Ideal) x1 x2 (ix2 t j) = val_main_v10 (F := Ideal) x1 x2 (ix2 t (Moe.f8 0)) := by
  rw [val_main_v23_apply, val_main_v22_apply]
  exact congrArg (val_main_v10 (F := Ideal) x1 x2)
    (funext fun a => Fin.ext (by match a with | ⟨0, _⟩ => rfl | ⟨1, _⟩ => rfl))

/-- The running result after expert 0: the one before plus the weight times the down projection. -/
private theorem step0 (x0 : (⟨S8192x2048, .f32⟩ : BufTy).Contents (Elt Ideal)) (x1 : (⟨S8192x2, .i32⟩ : BufTy).Contents (Elt Ideal)) (x2 : (⟨S8192x2, .f32⟩ : BufTy).Contents (Elt Ideal)) (x3 : (⟨S8x4096x2048, .f32⟩ : BufTy).Contents (Elt Ideal)) (x4 : (⟨S8x2048x4096, .f32⟩ : BufTy).Contents (Elt Ideal)) (t : Fin 8192) (j : Fin 2048) :
    val_main_v25 (F := Ideal) x0 x1 x2 x3 x4 (ix2 t j) =
      val_main_v11 (F := Ideal) (ix2 t j) +
        val_main_v10 (F := Ideal) x1 x2 (ix2 t (Moe.f8 0)) * Moe.yfull x0 x3 x4 (Moe.f8 0) t j := by
  rw [val_main_v25_apply, val_main_v24_apply, wt0, proj0]
  rfl

/-- The starting result is zero everywhere. -/
private theorem start_zero (t : Fin 8192) (j : Fin 2048) : val_main_v11 (F := Ideal) (ix2 t j) = 0 := by
  rw [val_main_v11_apply, val_main_cst_0_apply, Ideal.ofBits_def, Ideal.ofBits_zero_f32]

/-- The specification's eight steps written out: zero, then each expert's weighted down projection added in order. -/
private theorem outAcc_eight (X : Moe.SX.Idx → EReal) (C : Moe.SC.Idx → EReal) (U : Moe.SU.Idx → EReal) (D : Moe.SD.Idx → EReal)
    (t : Fin 8192) (j : Fin 2048) :
    Moe.outAcc X C U D t j 8 =
      0 + C (ix2 t (Moe.f8 0)) * Moe.yfull X U D (Moe.f8 0) t j
        + C (ix2 t (Moe.f8 1)) * Moe.yfull X U D (Moe.f8 1) t j
        + C (ix2 t (Moe.f8 2)) * Moe.yfull X U D (Moe.f8 2) t j
        + C (ix2 t (Moe.f8 3)) * Moe.yfull X U D (Moe.f8 3) t j
        + C (ix2 t (Moe.f8 4)) * Moe.yfull X U D (Moe.f8 4) t j
        + C (ix2 t (Moe.f8 5)) * Moe.yfull X U D (Moe.f8 5) t j
        + C (ix2 t (Moe.f8 6)) * Moe.yfull X U D (Moe.f8 6) t j
        + C (ix2 t (Moe.f8 7)) * Moe.yfull X U D (Moe.f8 7) t j := rfl

/-- The reference's last stage is the specification of its arguments, with the combine weights its own tenth stage. -/
theorem result_eq (x0 : (⟨S8192x2048, .f32⟩ : BufTy).Contents (Elt Ideal)) (x1 : (⟨S8192x2, .i32⟩ : BufTy).Contents (Elt Ideal))
    (x2 : (⟨S8192x2, .f32⟩ : BufTy).Contents (Elt Ideal)) (x3 : (⟨S8x4096x2048, .f32⟩ : BufTy).Contents (Elt Ideal))
    (x4 : (⟨S8x2048x4096, .f32⟩ : BufTy).Contents (Elt Ideal)) :
    val_main_v123 (F := Ideal) x0 x1 x2 x3 x4 = Moe.moe x0 (val_main_v10 (F := Ideal) x1 x2) x3 x4 := by
  funext idx
  obtain ⟨t, j, rfl⟩ : ∃ (t : Fin 8192) (j : Fin 2048), idx = ix2 t j := ⟨idx 0, idx 1, eq_ix2 idx⟩
  rw [Moe.moe_apply, outAcc_eight, step7, step6, step5, step4, step3, step2, step1, step0, start_zero]

end Cert.ReferenceIdeal.RefValue

end
-- ==== Proof.lean ====
/-
  The certificate's claims, assembled.

  Both programs compute, for every token t and hidden column j, the same chain over the extended reals:
  start from zero and, for the experts e = 0 … 7 in order, add (the token's combine weight for e) times (expert e's down
  projection of the squared, rectified up projection of the token). The kernel reaches expert e's down projection by
  adding eight blocks of 512 inner indices one at a time from zero, the reference by one sum over all 4096: the same
  extended real, because addition there is commutative and associative (nothing is distributed or cancelled, so the
  inputs' finiteness is never used). The kernel picks the combine weight out of the token's eight by a sum against a
  0/1 mask; the reference slices the column. The combine weights themselves come from the same operations on the routing
  indices and weights in both programs, and are carried as one function that is never opened.

  The kernel's frames are the generated ones; the reference's frame is its generated run with the result dropped;
  no operation was rewritten on the way to the idealized kernel, so that claim is trivial.
-/
import proofs.«168739_j6605659701708_1_alg».proof.Defs
import proofs.«168739_j6605659701708_1_alg».proof.Proof.Gen.Kernel
import proofs.«168739_j6605659701708_1_alg».proof.Proof.Gen.Kernel.Skeleton
import proofs.«168739_j6605659701708_1_alg».proof.Proof.Gen.Kernel.Launch
import proofs.«168739_j6605659701708_1_alg».proof.Proof.Gen.Kernel.Points
import proofs.«168739_j6605659701708_1_alg».proof.Proof.Gen.Kernel.Frame
import proofs.«168739_j6605659701708_1_alg».proof.Proof.Gen.KernelIdeal
import proofs.«168739_j6605659701708_1_alg».proof.Proof.Gen.KernelIdeal.Skeleton
import proofs.«168739_j6605659701708_1_alg».proof.Proof.Gen.KernelIdeal.Launch
import proofs.«168739_j6605659701708_1_alg».proof.Proof.Gen.KernelIdeal.Points
import proofs.«168739_j6605659701708_1_alg».proof.Proof.Gen.KernelIdeal.Frame
import proofs.«168739_j6605659701708_1_alg».proof.Proof.Gen.ReferenceIdeal
import proofs.«168739_j6605659701708_1_alg».proof.Proof.Gen.Pre_finite_inputs
import proofs.«168739_j6605659701708_1_alg».proof.Proof.Gen.KernelIdeal.Value
import proofs.«168739_j6605659701708_1_alg».proof.Proof.Gen.ReferenceIdeal.Run
import proofs.«168739_j6605659701708_1_alg».proof.Proof.Gen.ReferenceIdeal.Read
import proofs.«168739_j6605659701708_1_alg».proof.Proof.KernelValue
import proofs.«168739_j6605659701708_1_alg».proof.Proof.RefValue
import Idealize.ShloMosaic.Adequacy
import Idealize.ShloMosaic.Init

noncomputable section

namespace Cert.Proof

open Idealize.ShloMosaic Idealize.ShloMosaic.TcCoe Idealize.SL.Sem

/-- The combine weights as the kernel's program computes them before the call and as the reference computes them are
    one function of the routing indices and the routing weights: the same operations, composed the same way. -/
theorem comb_eq (a1 : (⟨Cert.KernelIdeal.S8192x2, .i32⟩ : BufTy).Contents (Elt Ideal))
    (a2 : (⟨Cert.KernelIdeal.S8192x2, .f32⟩ : BufTy).Contents (Elt Ideal)) :
    Cert.ReferenceIdeal.Read.val_main_v10 (F := Ideal) a1 a2 = Cert.KernelIdeal.Blk.comb (F := Ideal) a1 a2 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the specification of its arguments and the reference's
    result at the specification of arguments that agree with them: one array. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v123_eq, Cert.ReferenceIdeal.RefValue.result_eq,
    (hagree c).1, (hagree c).2.1, (hagree c).2.2.1, (hagree c).2.2.2.1, (hagree c).2.2.2.2, comb_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
